-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1000000 : Shape := ⟨2, ![2, 1000000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S64 .f32) (main_arg14 : FVec F S64x64 .f32) (main_arg15 : FVec F S64x2 .f32) (main_arg16 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x2 .f32 := Host.absf main_arg15
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg16 main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x2 .f32) (main_arg16 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x2 .f32) (main_arg16 : FVec F S2 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x8 .f32) (main_arg1 : IVec S2x1000000 32) (main_arg2 : IVec S100000 32) (main_arg3 : FVec F S8x64 .f32) (main_arg4 : FVec F S64 .f32) (main_arg5 : FVec F S8x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x2 .f32) (main_arg16 : FVec F S2 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg3
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg5
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x8 : Shape := ⟨2, ![100000, 8]⟩
abbrev S2x1000000 : Shape := ⟨2, ![2, 1000000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x8 : Shape := ⟨2, ![1000000, 8]⟩
abbrev S1x64 : Shape := ⟨2, ![1, 64]⟩
abbrev S100000x64 : Shape := ⟨2, ![100000, 64]⟩
abbrev S5000x8 : Shape := ⟨2, ![5000, 8]⟩
abbrev S5000x64 : Shape := ⟨2, ![5000, 64]⟩
abbrev S1000000x64 : Shape := ⟨2, ![1000000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 99
  | .vmem => 40
  | .smem => 0
  | _ => 0

abbrev bufTy : (tb : Table) → Fin (tcTables nBuf tb) → BufTy
  | .hbm, ⟨0, _⟩ => ⟨S100000x8, .f32⟩
  | .hbm, ⟨1, _⟩ => ⟨S2x1000000, .i32⟩
  | .hbm, ⟨2, _⟩ => ⟨S100000, .i32⟩
  | .hbm, ⟨3, _⟩ => ⟨S8x64, .f32⟩
  | .hbm, ⟨4, _⟩ => ⟨S64, .f32⟩
  | .hbm, ⟨5, _⟩ => ⟨S8x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x2, .f32⟩
  | .hbm, ⟨16, _⟩ => ⟨S2, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x8, .f32⟩
  | .hbm, ⟨30, _⟩ => ⟨S_, .f32⟩
  | .hbm, ⟨31, _⟩ => ⟨S100000x8, .f32⟩
  | .hbm, ⟨32, _⟩ => ⟨S1000000x1, .i32⟩
  | .hbm, ⟨33, _⟩ => ⟨S100000x8, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S_, .f32⟩
  | .hbm, ⟨61, _⟩ => ⟨S100000x64, .f32⟩
  | .hbm, ⟨62, _⟩ => ⟨S1000000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S_, .f32⟩
  | .hbm, ⟨76, _⟩ => ⟨S100000x64, .f32⟩
  | .hbm, ⟨77, _⟩ => ⟨S1000000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S_, .f32⟩
  | .hbm, ⟨82, _⟩ => ⟨S512x64, .f32⟩
  | .hbm, ⟨83, _⟩ => ⟨S100000x1, .i32⟩
  | .hbm, ⟨84, _⟩ => ⟨S512x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S512, .f32⟩
  | .hbm, ⟨89, _⟩ => ⟨S100000x1, .i32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S512x1, .f32⟩
  | .hbm, ⟨95, _⟩ => ⟨S512x64, .f32⟩
  | .hbm, ⟨96, _⟩ => ⟨S512x64, .f32⟩
  | .hbm, ⟨97, _⟩ => ⟨S1x2, .f32⟩
  | .hbm, ⟨98, _⟩ => ⟨S512x2, .f32⟩
  | .local _ .vmem, ⟨0, _⟩ => ⟨S5000x8, .f32⟩
  | .local _ .vmem, ⟨1, _⟩ => ⟨S5000x8, .f32⟩
  | .local _ .vmem, ⟨2, _⟩ => ⟨S5000x8, .f32⟩
  | .local _ .vmem, ⟨3, _⟩ => ⟨S5000x8, .f32⟩
  | .local _ .vmem, ⟨4, _⟩ => ⟨S8x64, .f32⟩
  | .local _ .vmem, ⟨5, _⟩ => ⟨S1x64, .f32⟩
  | .local _ .vmem, ⟨6, _⟩ => ⟨S8x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S5000x64, .f32⟩
  | .local _ .vmem, ⟨35, _⟩ => ⟨S5000x64, .f32⟩
  | .local _ .vmem, ⟨36, _⟩ => ⟨S512x64, .f32⟩
  | .local _ .vmem, ⟨37, _⟩ => ⟨S64x2, .f32⟩
  | .local _ .vmem, ⟨38, _⟩ => ⟨S1x2, .f32⟩
  | .local _ .vmem, ⟨39, _⟩ => ⟨S512x2, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x8 : S_.BroadcastsInDim S100000x8 (![] : Fin 0 → Fin S100000x8.rank)
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S100000x8_S1000000x1_S1000000x8_1_0_n_n_0_1_18_wf : GatherDims.WF S100000x8 S1000000x1 S1000000x8 [1] [0] [] [0] [] 1 ![1, 8]
  scatter_S100000x8_S1000000x1_S1000000x8_1_0_0_1_wf : ScatterDims.WF S100000x8 S1000000x1 S1000000x8 [1] [0] [0] 1
  dot_S5000x8_S8x64_S5000x64_1_0_0_1_n_n_wf : DotDims.WF S5000x8 S8x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S100000x8.size a
  hwx0_1 : ∀ i : grid0.Coords, EltTy.bits .f32 = 32 ∨ (Rect.block (s := S100000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def gather_S100000x8_S1000000x1_S1000000x8_1_0_n_n_0_1_18 : GatherDims S100000x8 S1000000x1 S1000000x8 where
  offsetDims := [1]
  collapsedSliceDims := [0]
  operandBatchingDims := []
  startIndicesBatchingDims := []
  startIndexMap := [0]
  indexVectorDim := 1
  sliceSizes := ![1, 8]
  wf := gather_S100000x8_S1000000x1_S1000000x8_1_0_n_n_0_1_18_wf
def scatter_S100000x8_S1000000x1_S1000000x8_1_0_0_1 : ScatterDims S100000x8 S1000000x1 S1000000x8 where
  updateWindowDims := [1]
  insertedWindowDims := [0]
  scatterDimsToOperandDims := [0]
  indexVectorDim := 1
  wf := scatter_S100000x8_S1000000x1_S1000000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_v13) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x8 : Shape := ⟨2, ![100000, 8]⟩
abbrev S2x1000000 : Shape := ⟨2, ![2, 1000000]⟩
abbrev S100000 : Shape := ⟨1, ![100000]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x8 : Shape := ⟨2, ![1000000, 8]⟩
abbrev S100000x64 : Shape := ⟨2, ![100000, 64]⟩
abbrev S1x64 : Shape := ⟨2, ![1, 64]⟩
abbrev S1000000x64 : Shape := ⟨2, ![1000000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 126
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x1000000, .i32⟩
  | .hbm, ⟨2, _⟩ => ⟨S100000, .i32⟩
  | .hbm, ⟨3, _⟩ => ⟨S8x64, .f32⟩
  | .hbm, ⟨4, _⟩ => ⟨S64, .f32⟩
  | .hbm, ⟨5, _⟩ => ⟨S8x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x2, .f32⟩
  | .hbm, ⟨16, _⟩ => ⟨S2, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x8, .f32⟩
  | .hbm, ⟨30, _⟩ => ⟨S_, .f32⟩
  | .hbm, ⟨31, _⟩ => ⟨S100000x8, .f32⟩
  | .hbm, ⟨32, _⟩ => ⟨S1000000x1, .i32⟩
  | .hbm, ⟨33, _⟩ => ⟨S100000x8, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S_, .f32⟩
  | .hbm, ⟨53, _⟩ => ⟨S100000x64, .f32⟩
  | .hbm, ⟨54, _⟩ => ⟨S1000000x1, .i32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1000000, .i32⟩
  | .hbm, ⟨67, _⟩ => ⟨S1000000, .i1⟩
  | .hbm, ⟨68, _⟩ => ⟨S_, .i32⟩
  | .hbm, ⟨69, _⟩ => ⟨S1000000, .i32⟩
  | .hbm, ⟨70, _⟩ => ⟨S1000000, .i32⟩
  | .hbm, ⟨71, _⟩ => ⟨S1000000, .i32⟩
  | .hbm, ⟨72, _⟩ => ⟨S1000000x1, .i32⟩
  | .hbm, ⟨73, _⟩ => ⟨S1000000x64, .f32⟩
  | .hbm, ⟨74, _⟩ => ⟨S_, .f32⟩
  | .hbm, ⟨75, _⟩ => ⟨S100000x64, .f32⟩
  | .hbm, ⟨76, _⟩ => ⟨S1000000x1, .i32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1000000, .i32⟩
  | .hbm, ⟨89, _⟩ => ⟨S1000000, .i1⟩
  | .hbm, ⟨90, _⟩ => ⟨S_, .i32⟩
  | .hbm, ⟨91, _⟩ => ⟨S1000000, .i32⟩
  | .hbm, ⟨92, _⟩ => ⟨S1000000, .i32⟩
  | .hbm, ⟨93, _⟩ => ⟨S1000000, .i32⟩
  | .hbm, ⟨94, _⟩ => ⟨S1000000x1, .i32⟩
  | .hbm, ⟨95, _⟩ => ⟨S1000000x64, .f32⟩
  | .hbm, ⟨96, _⟩ => ⟨S_, .f32⟩
  | .hbm, ⟨97, _⟩ => ⟨S100000x64, .f32⟩
  | .hbm, ⟨98, _⟩ => ⟨S1000000x1, .i32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S512x64, .f32⟩
  | .hbm, ⟨108, _⟩ => ⟨S100000x1, .i32⟩
  | .hbm, ⟨109, _⟩ => ⟨S512x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S512, .f32⟩
  | .hbm, ⟨114, _⟩ => ⟨S100000x1, .i32⟩
  | .hbm, ⟨115, _⟩ => ⟨S512, .f32⟩
  | .hbm, ⟨116, _⟩ => ⟨S_, .f32⟩
  | .hbm, ⟨117, _⟩ => ⟨S512, .f32⟩
  | .hbm, ⟨118, _⟩ => ⟨S512, .f32⟩
  | .hbm, ⟨119, _⟩ => ⟨S512x1, .f32⟩
  | .hbm, ⟨120, _⟩ => ⟨S512x64, .f32⟩
  | .hbm, ⟨121, _⟩ => ⟨S512x64, .f32⟩
  | .hbm, ⟨122, _⟩ => ⟨S512x2, .f32⟩
  | .hbm, ⟨123, _⟩ => ⟨S1x2, .f32⟩
  | .hbm, ⟨124, _⟩ => ⟨S512x2, .f32⟩
  | .hbm, ⟨125, _⟩ => ⟨S512x2, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_cst : Ref sig .tc := ⟨.hbm, 62, rfl⟩
abbrev main_call1_v0 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_7 : Ref sig .tc := ⟨.hbm, 87, rfl⟩
abbrev main_v55 : Ref sig .tc := ⟨.hbm, 88, rfl⟩
abbrev main_v56 : Ref sig .tc := ⟨.hbm, 89, rfl⟩
abbrev main_c_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_cst_12 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x8 : S_.BroadcastsInDim S100000x8 (![] : Fin 0 → Fin S100000x8.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S100000x8_S1000000x1_S1000000x8_1_0_n_n_0_1_18_wf : GatherDims.WF S100000x8 S1000000x1 S1000000x8 [1] [0] [] [0] [] 1 ![1, 8]
  scatter_S100000x8_S1000000x1_S1000000x8_1_0_0_1_wf : ScatterDims.WF S100000x8 S1000000x1 S1000000x8 [1] [0] [0] 1
  dot_S100000x8_S8x64_S100000x64_1_0_0_1_n_n_wf : DotDims.WF S100000x8 S8x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []

variable [Facts₀]

def gather_S100000x8_S1000000x1_S1000000x8_1_0_n_n_0_1_18 : GatherDims S100000x8 S1000000x1 S1000000x8 where
  offsetDims := [1]
  collapsedSliceDims := [0]
  operandBatchingDims := []
  startIndicesBatchingDims := []
  startIndexMap := [0]
  indexVectorDim := 1
  sliceSizes := ![1, 8]
  wf := gather_S100000x8_S1000000x1_S1000000x8_1_0_n_n_0_1_18_wf
def scatter_S100000x8_S1000000x1_S1000000x8_1_0_0_1 : ScatterDims S100000x8 S1000000x1 S1000000x8 where
  updateWindowDims := [1]
  insertedWindowDims := [0]
  scatterDimsToOperandDims := [0]
  indexVectorDim := 1
  wf := scatter_S100000x8_S1000000x1_S1000000x8_1_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDenseRows.lean ====
/-
  The dense layers of a two-layer graph convolution with linear residuals, as whole-array functions over the
  extended reals, for any sizes.

  With x an [A, K] matrix, w a [K, C] matrix, r a one-row matrix [1, C] and a, d matrices [A, C]:
    lin x w       (p, q) = sum over k < K of x (p, k) * w (k, q)          -- the product x·w
    affine x w r  (p, q) = lin x w (p, q) + r (0, q)                       -- x·w + r, r repeated down the rows
    rect a r d    (p, q) = max (a (p, q) + r (0, q)) 0 + d (p, q)          -- relu (a + r) + d
  Each depends on row p of its row-indexed operands only, so a block of rows of the result is the same function of
  the same block of rows of the operands ('lin_rows', 'affine_rows', 'rect_rows').

  A kernel body computes them on a block: a matrix-unit product of the operands narrowed to bf16 into a zero
  accumulator is 'lin' (narrowing is the identity on the extended reals); a one-row matrix recast to its own shape and
  broadcast down the rows, added, gives 'affine'; the maximum against the splat of zero and the residual give 'rect'.
  The host computes them on the whole arrays: dot_general is 'lin'.
-/
import Idealize.ShloMosaic.Lib.ValueIdx
import Idealize.ShloMosaic.Lib.Pipeline.Value
import Idealize.ShloMosaic.PureOps.Ideal.Laws
import proofs.«110120_j60421599920514_1_alg».proof.Proof.LibMatmul
import proofs.«110120_j60421599920514_1_alg».proof.Proof.LibColToRow
import proofs.«110120_j60421599920514_1_alg».proof.Proof.LibLayout

noncomputable section

namespace Cert.Gcn

open Idealize.ShloMosaic Idealize.ShloMosaic.ValueIdx

/-- An [A, C] matrix of extended reals. -/
abbrev Mat (A C : Nat) : Type := (⟨2, ![A, C]⟩ : Shape).Idx → EReal

variable {A B K C : Nat}

/-- The product x·w. -/
def lin (x : Mat A K) (w : Mat K C) : Mat A C :=
  fun i => ∑ k : Fin K, x (ix2 (i 0 : Fin A) k) * w (ix2 k (i 1 : Fin C))

/-- x·w + r, the one row r repeated down the rows. -/
def affine (x : Mat A K) (w : Mat K C) (r : Mat 1 C) : Mat A C :=
  fun i => lin x w i + r (ix2 (0 : Fin 1) (i 1 : Fin C))

/-- relu (a + r) + d, the one row r repeated down the rows. -/
def rect (a : Mat A C) (r : Mat 1 C) (d : Mat A C) : Mat A C :=
  fun i => max (a i + r (ix2 (0 : Fin 1) (i 1 : Fin C))) 0 + d i

theorem lin_apply (x : Mat A K) (w : Mat K C) (p : Fin A) (q : Fin C) :
    lin x w (ix2 p q) = ∑ k : Fin K, x (ix2 p k) * w (ix2 k q) := rfl

theorem affine_apply (x : Mat A K) (w : Mat K C) (r : Mat 1 C) (p : Fin A) (q : Fin C) :
    affine x w r (ix2 p q) = (∑ k : Fin K, x (ix2 p k) * w (ix2 k q)) + r (ix2 (0 : Fin 1) q) := rfl

theorem rect_apply (a : Mat A C) (r : Mat 1 C) (d : Mat A C) (p : Fin A) (q : Fin C) :
    rect a r d (ix2 p q) = max (a (ix2 p q) + r (ix2 (0 : Fin 1) q)) 0 + d (ix2 p q) := rfl

/-! ## Rows: a block of rows of the result from the same block of rows of the operands -/

/-- Rows `ρ p` of the big product are the product of those rows. -/
theorem lin_rows (X : Mat A K) (W : Mat K C) (xb : Mat B K) (wb : Mat K C) (ρ : Fin B → Fin A)
    (hx : ∀ p k, xb (ix2 p k) = X (ix2 (ρ p) k)) (hw : ∀ k q, wb (ix2 k q) = W (ix2 k q)) (p : Fin B) (q : Fin C) :
    lin xb wb (ix2 p q) = lin X W (ix2 (ρ p) q) := by
  rw [lin_apply, lin_apply]
  exact Finset.sum_congr rfl fun k _ => by rw [hx p k, hw k q]

theorem affine_rows (X : Mat A K) (W : Mat K C) (R : Mat 1 C) (xb : Mat B K) (wb : Mat K C) (rb : Mat 1 C) (ρ : Fin B → Fin A)
    (hx : ∀ p k, xb (ix2 p k) = X (ix2 (ρ p) k)) (hw : ∀ k q, wb (ix2 k q) = W (ix2 k q))
    (hr : ∀ q, rb (ix2 (0 : Fin 1) q) = R (ix2 (0 : Fin 1) q)) (p : Fin B) (q : Fin C) :
    affine xb wb rb (ix2 p q) = affine X W R (ix2 (ρ p) q) := by
  rw [affine_apply, affine_apply, hr q]
  exact congrArg (· + R (ix2 (0 : Fin 1) q)) (Finset.sum_congr rfl fun k _ => by rw [hx p k, hw k q])

theorem rect_rows (Aa : Mat A C) (R : Mat 1 C) (D : Mat A C) (ab : Mat B C) (rb : Mat 1 C) (db : Mat B C) (ρ : Fin B → Fin A)
    (ha : ∀ p q, ab (ix2 p q) = Aa (ix2 (ρ p) q)) (hr : ∀ q, rb (ix2 (0 : Fin 1) q) = R (ix2 (0 : Fin 1) q))
    (hd : ∀ p q, db (ix2 p q) = D (ix2 (ρ p) q)) (p : Fin B) (q : Fin C) :
    rect ab rb db (ix2 p q) = rect Aa R D (ix2 (ρ p) q) := by
  rw [rect_apply, rect_apply, ha p q, hr q, hd p q]

/-! ## The kernel's spelling, on a block -/

/-- A matrix-unit product into the zero accumulator is the product (whatever formats the operands were narrowed to). -/
theorem matmul_eq_lin {φ₁ φ₂ : FTy} (l : FVec Ideal ⟨2, ![A, K]⟩ φ₁) (r : FVec Ideal ⟨2, ![K, C]⟩ φ₂) :
    FloatOps.matmul (DotDims.plain A K C) none l r (constant ⟨2, ![A, C]⟩ .f32 0x00000000#32) = lin l r := by
  funext i
  obtain ⟨p, q, rfl⟩ : ∃ (p : Fin A) (q : Fin C), i = ix2 p q := ⟨i 0, i 1, eq_ix2 i⟩
  exact Cert.Lib.Matmul.matmul_zero_apply none l r p q

/-- The product plus a one-row matrix recast to its own shape and broadcast down the rows. -/
theorem addRow_eq_affine (m : FVec Ideal ⟨2, ![A, C]⟩ .f32) (x : Mat A K) (w : Mat K C) (hm : m = lin x w)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) :
    addf m (broadcastTo ⟨2, ![A, C]⟩ (shapeCast ⟨2, ![1, C]⟩ r hs) hb) = affine x w r := by
  subst hm
  funext i
  obtain ⟨p, q, rfl⟩ : ∃ (p : Fin A) (q : Fin C), i = ix2 p q := ⟨i 0, i 1, eq_ix2 i⟩
  rw [shapeCast_self]
  show lin x w (ix2 p q) + broadcastTo ⟨2, ![A, C]⟩ r hb (ix2 p q) = _
  rw [Cert.Lib.ColToRow.bcastRowMat_apply r hb p q]
  rfl

/-- relu (a + r) + d in the kernel's spelling: every operand recast to its own shape, the row broadcast down, the maximum
    against the splat of the zero word, the residual added. -/
theorem body_eq_rect (a d : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    addf (maximumf (addf (shapeCast ⟨2, ![A, C]⟩ a ha) (broadcastTo ⟨2, ![A, C]⟩ (shapeCast ⟨2, ![1, C]⟩ r hs) hb))
        (broadcast ⟨2, ![A, C]⟩ (Scalar.ofBits (F := Ideal) .f32 0x00000000#32))) (shapeCast ⟨2, ![A, C]⟩ d ha)
      = rect a r d := by
  funext i
  obtain ⟨p, q, rfl⟩ : ∃ (p : Fin A) (q : Fin C), i = ix2 p q := ⟨i 0, i 1, eq_ix2 i⟩
  rw [shapeCast_self, shapeCast_self, shapeCast_self]
  show max (a (ix2 p q) + broadcastTo ⟨2, ![A, C]⟩ r hb (ix2 p q)) (Ideal.ofBits .f32 0x00000000#32) + d (ix2 p q) = _
  rw [Cert.Lib.ColToRow.bcastRowMat_apply r hb p q, Ideal.ofBits_zero_f32]
  rfl

/-! ## The host's spelling, on the whole arrays -/

/-- The host's dot_general is the product. -/
theorem dotGeneral_eq_lin {φ₁ φ₂ : FTy} (sched : HostSchedule) (l : FVec Ideal ⟨2, ![A, K]⟩ φ₁) (r : FVec Ideal ⟨2, ![K, C]⟩ φ₂) :
    FloatOps.dotGeneral (DotDims.plain A K C) none sched l r = lin l r := by
  funext i
  obtain ⟨p, q, rfl⟩ : ∃ (p : Fin A) (q : Fin C), i = ix2 p q := ⟨i 0, i 1, eq_ix2 i⟩
  exact Cert.Lib.Matmul.dotGeneral_apply none sched l r p q

/-- The host's x·w + r: dot_general plus the one row spread over the rows by broadcast_in_dim. -/
theorem host_affine (sched : HostSchedule) (l : FVec Ideal ⟨2, ![A, K]⟩ .f32) (r : FVec Ideal ⟨2, ![K, C]⟩ .f32)
    (R : FVec Ideal ⟨2, ![1, C]⟩ .f32) (hb : (⟨2, ![1, C]⟩ : Shape).BroadcastsInDim ⟨2, ![A, C]⟩ ![0, 1]) :
    addf (FloatOps.dotGeneral (DotDims.plain A K C) none sched l r) (broadcastInDim ⟨2, ![A, C]⟩ ![0, 1] hb R) = affine l r R := by
  funext i
  obtain ⟨p, q, rfl⟩ : ∃ (p : Fin A) (q : Fin C), i = ix2 p q := ⟨i 0, i 1, eq_ix2 i⟩
  show FloatOps.dotGeneral (DotDims.plain A K C) none sched l r (ix2 p q) + broadcastInDim ⟨2, ![A, C]⟩ ![0, 1] hb R (ix2 p q) = _
  rw [Cert.Lib.Matmul.dotGeneral_apply none sched l r p q,
    broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl)]
  rfl

/-- The host's relu (a + r) + d: the one row spread over the rows, the maximum against the spread zero, the residual. -/
theorem host_rect (a d : FVec Ideal ⟨2, ![A, C]⟩ .f32) (R : FVec Ideal ⟨2, ![1, C]⟩ .f32)
    (hb : (⟨2, ![1, C]⟩ : Shape).BroadcastsInDim ⟨2, ![A, C]⟩ ![0, 1])
    (hz : (⟨0, ![]⟩ : Shape).BroadcastsInDim ⟨2, ![A, C]⟩ ![]) :
    addf (maximumf (addf a (broadcastInDim ⟨2, ![A, C]⟩ ![0, 1] hb R))
        (broadcastInDim ⟨2, ![A, C]⟩ ![] hz (constant (F := Ideal) ⟨0, ![]⟩ .f32 0x00000000#32))) d = rect a R d := by
  funext i
  obtain ⟨p, q, rfl⟩ : ∃ (p : Fin A) (q : Fin C), i = ix2 p q := ⟨i 0, i 1, eq_ix2 i⟩
  show max (a (ix2 p q) + broadcastInDim ⟨2, ![A, C]⟩ ![0, 1] hb R (ix2 p q))
      (broadcastInDim ⟨2, ![A, C]⟩ ![] hz (constant (F := Ideal) ⟨0, ![]⟩ .f32 0x00000000#32) (ix2 p q)) + d (ix2 p q) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl),
    broadcastInDim_apply ![] hz (constant (F := Ideal) ⟨0, ![]⟩ .f32 0x00000000#32) (ix2 p q) ix0 (fun a => a.elim0)]
  show max (a (ix2 p q) + R (ix2 (0 : Fin 1) q)) (Ideal.ofBits .f32 0x00000000#32) + d (ix2 p q) = _
  rw [Ideal.ofBits_zero_f32]
  rfl

/-- A vector laid out as one row in two ways, by a recast and by a broadcast along the new axis: the same row. -/
theorem rowCast_eq_rowBcast {α : Type} (v : (⟨1, ![C]⟩ : Shape).Idx → α)
    (h1 : (⟨1, ![C]⟩ : Shape).ShapeCasts ⟨2, ![1, C]⟩) (h2 : (⟨1, ![C]⟩ : Shape).BroadcastsInDim ⟨2, ![1, C]⟩ ![1]) :
    shapeCast ⟨2, ![1, C]⟩ v h1 = broadcastInDim ⟨2, ![1, C]⟩ ![1] h2 v := by
  funext i
  obtain ⟨z, q, rfl⟩ : ∃ (z : Fin 1) (q : Fin C), i = ix2 z q := ⟨i 0, i 1, eq_ix2 i⟩
  rw [Cert.Lib.Layout.rowCast_apply v h1 z q,
    broadcastInDim_apply ![1] h2 v (ix2 z q) (ix1 q) (fun a => by
      match a with
      | ⟨0, _⟩ =>
        show q.val = if C = 1 then 0 else q.val
        split
        · have := q.isLt; omega
        · rfl)]

end Cert.Gcn

end
-- ==== Proof.Spec.lean ====
/-
  The dense half of a graph-convolution layer, as whole-array functions over the extended reals, for any sizes.

  With a and h matrices [A, K] (the aggregated neighbour features and the node's own features), wr and wo matrices
  [K, C] and r a one-row matrix [1, C]:
    mix a h wr r wo      (p, q) = ((sum over k of a (p, k) * wr (k, q)) + r (0, q)) + sum over k of h (p, k) * wo (k, q)
    mixRelu a h wr r wo  (p, q) = max (mix a h wr r wo (p, q)) 0
  Entry (p, q) depends on row p of a and of h only, so a block of rows of the result is the same function of the same
  block of rows of a and h ('mix_rows', 'mixRelu_rows').

  A kernel body computes them on a block of rows: two matrix-unit products of operands narrowed to bf16 into zero
  accumulators (narrowing is the identity on the extended reals), the one row broadcast down the rows, two sums, and for
  the rectified layer the maximum against the splat of the zero word. The host computes them on the whole arrays with
  dot_general, the row spread by broadcast_in_dim, and the maximum against a spread zero.
-/
import Idealize.ShloMosaic.Lib.ValueIdx
import Idealize.ShloMosaic.Lib.Pipeline.Value
import Idealize.ShloMosaic.PureOps.Ideal.Laws
import proofs.«110120_j60421599920514_1_alg».proof.Proof.LibDenseRows

noncomputable section

namespace Cert.GraphConv

open Idealize.ShloMosaic Idealize.ShloMosaic.ValueIdx Cert.Gcn

variable {A B K C : Nat}

/-- (a·wr + r) + h·wo, the one row r repeated down the rows. -/
def mix (a h : Mat A K) (wr : Mat K C) (r : Mat 1 C) (wo : Mat K C) : Mat A C :=
  fun i => affine a wr r i + lin h wo i

/-- The rectified layer: max ((a·wr + r) + h·wo) 0. -/
def mixRelu (a h : Mat A K) (wr : Mat K C) (r : Mat 1 C) (wo : Mat K C) : Mat A C :=
  fun i => max (mix a h wr r wo i) 0

theorem mix_apply (a h : Mat A K) (wr : Mat K C) (r : Mat 1 C) (wo : Mat K C) (p : Fin A) (q : Fin C) :
    mix a h wr r wo (ix2 p q) = affine a wr r (ix2 p q) + lin h wo (ix2 p q) := rfl

theorem mixRelu_apply (a h : Mat A K) (wr : Mat K C) (r : Mat 1 C) (wo : Mat K C) (p : Fin A) (q : Fin C) :
    mixRelu a h wr r wo (ix2 p q) = max (mix a h wr r wo (ix2 p q)) 0 := rfl

/-! ## Rows: a block of rows of the result from the same block of rows of a and h -/

/-- Rows `ρ p` of the layer over the whole arrays are the layer over those rows of a and h. -/
theorem mix_rows (Aa H : Mat A K) (WR : Mat K C) (R : Mat 1 C) (WO : Mat K C)
    (ab hb : Mat B K) (wrb : Mat K C) (rb : Mat 1 C) (wob : Mat K C) (ρ : Fin B → Fin A)
    (ha : ∀ p k, ab (ix2 p k) = Aa (ix2 (ρ p) k)) (hh : ∀ p k, hb (ix2 p k) = H (ix2 (ρ p) k))
    (hwr : ∀ k q, wrb (ix2 k q) = WR (ix2 k q)) (hr : ∀ q, rb (ix2 (0 : Fin 1) q) = R (ix2 (0 : Fin 1) q))
    (hwo : ∀ k q, wob (ix2 k q) = WO (ix2 k q)) (p : Fin B) (q : Fin C) :
    mix ab hb wrb rb wob (ix2 p q) = mix Aa H WR R WO (ix2 (ρ p) q) := by
  rw [mix_apply, mix_apply, affine_rows Aa WR R ab wrb rb ρ ha hwr hr p q, lin_rows H WO hb wob ρ hh hwo p q]

theorem mixRelu_rows (Aa H : Mat A K) (WR : Mat K C) (R : Mat 1 C) (WO : Mat K C)
    (ab hb : Mat B K) (wrb : Mat K C) (rb : Mat 1 C) (wob : Mat K C) (ρ : Fin B → Fin A)
    (ha : ∀ p k, ab (ix2 p k) = Aa (ix2 (ρ p) k)) (hh : ∀ p k, hb (ix2 p k) = H (ix2 (ρ p) k))
    (hwr : ∀ k q, wrb (ix2 k q) = WR (ix2 k q)) (hr : ∀ q, rb (ix2 (0 : Fin 1) q) = R (ix2 (0 : Fin 1) q))
    (hwo : ∀ k q, wob (ix2 k q) = WO (ix2 k q)) (p : Fin B) (q : Fin C) :
    mixRelu ab hb wrb rb wob (ix2 p q) = mixRelu Aa H WR R WO (ix2 (ρ p) q) := by
  rw [mixRelu_apply, mixRelu_apply, mix_rows Aa H WR R WO ab hb wrb rb wob ρ ha hh hwr hr hwo p q]

/-- The same at any two indices that agree on the column: entry `j` of the layer over blocks is entry `i` of the layer over
    the whole arrays when row `j 0` of each block is row `i 0` of its array. -/
theorem mix_at (Aa H : Mat A K) (WR : Mat K C) (R : Mat 1 C) (WO : Mat K C)
    (ab hb : Mat B K) (wrb : Mat K C) (rb : Mat 1 C) (wob : Mat K C)
    (j : (⟨2, ![B, C]⟩ : Shape).Idx) (i : (⟨2, ![A, C]⟩ : Shape).Idx) (hq : (i 1 : Fin C) = (j 1 : Fin C))
    (ha : ∀ k, ab (ix2 (j 0 : Fin B) k) = Aa (ix2 (i 0 : Fin A) k)) (hh : ∀ k, hb (ix2 (j 0 : Fin B) k) = H (ix2 (i 0 : Fin A) k))
    (hwr : ∀ k q, wrb (ix2 k q) = WR (ix2 k q)) (hr : ∀ q, rb (ix2 (0 : Fin 1) q) = R (ix2 (0 : Fin 1) q))
    (hwo : ∀ k q, wob (ix2 k q) = WO (ix2 k q)) :
    mix ab hb wrb rb wob j = mix Aa H WR R WO i := by
  obtain ⟨p, q, rfl⟩ : ∃ (p : Fin B) (q : Fin C), j = ix2 p q := ⟨j 0, j 1, eq_ix2 j⟩
  obtain ⟨p', q', rfl⟩ : ∃ (p' : Fin A) (q' : Fin C), i = ix2 p' q' := ⟨i 0, i 1, eq_ix2 i⟩
  have e : q' = q := hq
  subst e
  have ha' : ∀ k, ab (ix2 p k) = Aa (ix2 p' k) := ha
  have hh' : ∀ k, hb (ix2 p k) = H (ix2 p' k) := hh
  rw [mix_apply, mix_apply, affine_apply, affine_apply, lin_apply, lin_apply, hr q']
  congr 1
  · congr 1
    exact Finset.sum_congr rfl fun k _ => by rw [ha' k, hwr k q']
  · exact Finset.sum_congr rfl fun k _ => by rw [hh' k, hwo k q']

theorem mixRelu_at (Aa H : Mat A K) (WR : Mat K C) (R : Mat 1 C) (WO : Mat K C)
    (ab hb : Mat B K) (wrb : Mat K C) (rb : Mat 1 C) (wob : Mat K C)
    (j : (⟨2, ![B, C]⟩ : Shape).Idx) (i : (⟨2, ![A, C]⟩ : Shape).Idx) (hq : (i 1 : Fin C) = (j 1 : Fin C))
    (ha : ∀ k, ab (ix2 (j 0 : Fin B) k) = Aa (ix2 (i 0 : Fin A) k)) (hh : ∀ k, hb (ix2 (j 0 : Fin B) k) = H (ix2 (i 0 : Fin A) k))
    (hwr : ∀ k q, wrb (ix2 k q) = WR (ix2 k q)) (hr : ∀ q, rb (ix2 (0 : Fin 1) q) = R (ix2 (0 : Fin 1) q))
    (hwo : ∀ k q, wob (ix2 k q) = WO (ix2 k q)) :
    mixRelu ab hb wrb rb wob j = mixRelu Aa H WR R WO i := by
  show max (mix ab hb wrb rb wob j) 0 = max (mix Aa H WR R WO i) 0
  rw [mix_at Aa H WR R WO ab hb wrb rb wob j i hq ha hh hwr hr hwo]

/-- The linear head at any two indices that agree on the column. -/
theorem affine_at (X : Mat A K) (W : Mat K C) (R : Mat 1 C) (xb : Mat B K) (wb : Mat K C) (rb : Mat 1 C)
    (j : (⟨2, ![B, C]⟩ : Shape).Idx) (i : (⟨2, ![A, C]⟩ : Shape).Idx) (hq : (i 1 : Fin C) = (j 1 : Fin C))
    (hx : ∀ k, xb (ix2 (j 0 : Fin B) k) = X (ix2 (i 0 : Fin A) k))
    (hw : ∀ k q, wb (ix2 k q) = W (ix2 k q)) (hr : ∀ q, rb (ix2 (0 : Fin 1) q) = R (ix2 (0 : Fin 1) q)) :
    affine xb wb rb j = affine X W R i := by
  obtain ⟨p, q, rfl⟩ : ∃ (p : Fin B) (q : Fin C), j = ix2 p q := ⟨j 0, j 1, eq_ix2 j⟩
  obtain ⟨p', q', rfl⟩ : ∃ (p' : Fin A) (q' : Fin C), i = ix2 p' q' := ⟨i 0, i 1, eq_ix2 i⟩
  have e : q' = q := hq
  subst e
  have hx' : ∀ k, xb (ix2 p k) = X (ix2 p' k) := hx
  rw [affine_apply, affine_apply, hr q']
  congr 1
  exact Finset.sum_congr rfl fun k _ => by rw [hx' k, hw k q']

/-! ## The kernel's spelling, on a block -/

/-- Narrowing to bf16 changes nothing on the extended reals. -/
theorem truncf_id {s : Shape} (x : FVec Ideal s .f32) (h : FTy.bf16.bits < FTy.f32.bits) :
    truncf .bf16 x h = x := rfl

/-- The body without the rectifier: two products of narrowed operands into zero accumulators, the row broadcast down. -/
theorem body_mix (x0 x1 : FVec Ideal ⟨2, ![A, K]⟩ .f32) (w0 w1 : FVec Ideal ⟨2, ![K, C]⟩ .f32)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) (hbits : FTy.bf16.bits < FTy.f32.bits) :
    addf (addf (FloatOps.matmul (DotDims.plain A K C) none (truncf .bf16 x0 hbits) (truncf .bf16 w0 hbits)
          (constant ⟨2, ![A, C]⟩ .f32 0x00000000#32))
        (broadcastTo ⟨2, ![A, C]⟩ (shapeCast ⟨2, ![1, C]⟩ r hs) hb))
      (FloatOps.matmul (DotDims.plain A K C) none (truncf .bf16 x1 hbits) (truncf .bf16 w1 hbits)
        (constant ⟨2, ![A, C]⟩ .f32 0x00000000#32))
      = mix x0 x1 w0 r w1 := by
  rw [matmul_eq_lin (truncf .bf16 x1 hbits) (truncf .bf16 w1 hbits),
    addRow_eq_affine _ (truncf .bf16 x0 hbits) (truncf .bf16 w0 hbits) (matmul_eq_lin _ _) r hs hb]
  rfl

/-- The rectified body: the same, then the maximum against the splat of the zero word. -/
theorem body_mixRelu (x0 x1 : FVec Ideal ⟨2, ![A, K]⟩ .f32) (w0 w1 : FVec Ideal ⟨2, ![K, C]⟩ .f32)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) (hbits : FTy.bf16.bits < FTy.f32.bits) :
    maximumf (addf (addf (FloatOps.matmul (DotDims.plain A K C) none (truncf .bf16 x0 hbits) (truncf .bf16 w0 hbits)
            (constant ⟨2, ![A, C]⟩ .f32 0x00000000#32))
          (broadcastTo ⟨2, ![A, C]⟩ (shapeCast ⟨2, ![1, C]⟩ r hs) hb))
        (FloatOps.matmul (DotDims.plain A K C) none (truncf .bf16 x1 hbits) (truncf .bf16 w1 hbits)
          (constant ⟨2, ![A, C]⟩ .f32 0x00000000#32)))
      (broadcast ⟨2, ![A, C]⟩ (Scalar.ofBits (F := Ideal) .f32 0x00000000#32))
      = mixRelu x0 x1 w0 r w1 := by
  rw [body_mix x0 x1 w0 w1 r hs hb hbits]
  funext i
  show max (mix x0 x1 w0 r w1 i) (Ideal.ofBits .f32 0x00000000#32) = _
  rw [Ideal.ofBits_zero_f32]
  rfl

/-- The linear head on a block: one product of narrowed operands into a zero accumulator plus the row broadcast down. -/
theorem body_affine (x : FVec Ideal ⟨2, ![A, K]⟩ .f32) (w : FVec Ideal ⟨2, ![K, C]⟩ .f32)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) (hbits : FTy.bf16.bits < FTy.f32.bits) :
    addf (FloatOps.matmul (DotDims.plain A K C) none (truncf .bf16 x hbits) (truncf .bf16 w hbits)
        (constant ⟨2, ![A, C]⟩ .f32 0x00000000#32))
      (broadcastTo ⟨2, ![A, C]⟩ (shapeCast ⟨2, ![1, C]⟩ r hs) hb)
      = affine x w r := by
  exact addRow_eq_affine _ (truncf .bf16 x hbits) (truncf .bf16 w hbits) (matmul_eq_lin _ _) r hs hb

/-! ## The host's spelling, on the whole arrays -/

/-- The host's layer without the rectifier. -/
theorem host_mix (sched : HostSchedule) (a h : FVec Ideal ⟨2, ![A, K]⟩ .f32) (wr wo : FVec Ideal ⟨2, ![K, C]⟩ .f32)
    (R : FVec Ideal ⟨2, ![1, C]⟩ .f32) (hb : (⟨2, ![1, C]⟩ : Shape).BroadcastsInDim ⟨2, ![A, C]⟩ ![0, 1]) :
    addf (addf (FloatOps.dotGeneral (DotDims.plain A K C) none sched a wr) (broadcastInDim ⟨2, ![A, C]⟩ ![0, 1] hb R))
      (FloatOps.dotGeneral (DotDims.plain A K C) none sched h wo) = mix a h wr R wo := by
  rw [host_affine sched a wr R hb, dotGeneral_eq_lin sched h wo]
  rfl

/-- The host's rectified layer: the maximum against the spread zero. -/
theorem host_mixRelu (sched : HostSchedule) (a h : FVec Ideal ⟨2, ![A, K]⟩ .f32) (wr wo : FVec Ideal ⟨2, ![K, C]⟩ .f32)
    (R : FVec Ideal ⟨2, ![1, C]⟩ .f32) (hb : (⟨2, ![1, C]⟩ : Shape).BroadcastsInDim ⟨2, ![A, C]⟩ ![0, 1])
    (hz : (⟨0, ![]⟩ : Shape).BroadcastsInDim ⟨2, ![A, C]⟩ ![]) :
    maximumf (addf (addf (FloatOps.dotGeneral (DotDims.plain A K C) none sched a wr) (broadcastInDim ⟨2, ![A, C]⟩ ![0, 1] hb R))
        (FloatOps.dotGeneral (DotDims.plain A K C) none sched h wo))
      (broadcastInDim ⟨2, ![A, C]⟩ ![] hz (constant (F := Ideal) ⟨0, ![]⟩ .f32 0x00000000#32))
      = mixRelu a h wr R wo := by
  rw [host_mix sched a h wr wo R hb]
  funext i
  show max (mix a h wr R wo i)
      (broadcastInDim ⟨2, ![A, C]⟩ ![] hz (constant (F := Ideal) ⟨0, ![]⟩ .f32 0x00000000#32) i) = _
  rw [broadcastInDim_apply ![] hz (constant (F := Ideal) ⟨0, ![]⟩ .f32 0x00000000#32) i ix0 (fun a => a.elim0)]
  show max (mix a h wr R wo i) (Ideal.ofBits .f32 0x00000000#32) = _
  rw [Ideal.ofBits_zero_f32]
  rfl

end Cert.GraphConv

end
-- ==== Proof.Shared.lean ====
/-
  The network both programs compute, as one function of the argument arrays over the extended reals.

  A graph convolution layer aggregates, for every node, the feature rows of the sources of the edges that end at it
  (a row gather by the source indices, a negative index first moved up by the number of nodes, then a scatter-add by the
  destination indices into zeros), and mixes the aggregate a with the node's own features h:
  relu ((a·wr + b) + h·wo), the bias b laid out as one row. Four such layers (the last without the rectifier), a mean
  over the nodes of each graph (a scatter-add by graph id divided by the count of the graph's nodes, at least one), and a
  linear head. The irregular steps (gather, scatter-add, the counts and the division) are host operations in BOTH
  programs, with the same dimension records; they are named here once and never opened.
-/
import proofs.«110120_j60421599920514_1_alg».proof.ReferenceIdeal
import proofs.«110120_j60421599920514_1_alg».proof.Proof.Gen.ReferenceIdeal
import proofs.«110120_j60421599920514_1_alg».proof.Proof.Spec

noncomputable section

namespace Cert.Net

open Idealize.ShloMosaic Cert.ReferenceIdeal Cert.ReferenceIdeal.Gen Cert.GraphConv Cert.Gcn

/-- Integer arrays (edge endpoints, graph ids). -/
abbrev IArr (s : Shape) : Type := (⟨s, .i32⟩ : BufTy).Contents (Elt Ideal)

/-- Row 0 of the edge list: the edges' sources. -/
def src (ei : IArr S2x1000000) : IArr S1000000 :=
  shapeCast _ (extractStridedSlice S1x1000000 ![0, 0] ei slices_S2x1000000_S1x1000000_0_0) shapeCasts_S1x1000000_S1000000

/-- Row 1 of the edge list: the edges' destinations. -/
def dst (ei : IArr S2x1000000) : IArr S1000000 :=
  shapeCast _ (extractStridedSlice S1x1000000 ![1, 0] ei slices_S2x1000000_S1x1000000_1_0) shapeCasts_S1x1000000_S1000000

/-- A negative index counts from the end: 100000 is added to it. -/
def wrap (s : IArr S1000000) : IArr S1000000 :=
  select (cmpi .slt s (broadcastInDim S1000000 ![] bcast_S_S1000000 (constantI S_ 32 0#32)))
    (addi s (broadcastInDim S1000000 ![] bcast_S_S1000000 (constantI S_ 32 100000#32))) s

/-- The neighbour sums of 8-column features: gather the sources' rows, scatter-add them at the destinations. -/
def agg8 (x : FVec Ideal S100000x8 .f32) (s d : IArr S1000000) : FVec Ideal S100000x8 .f32 :=
  Host.scatterAdd (F := Ideal) scatter_S100000x8_S1000000x1_S1000000x8_1_0_0_1
    (broadcastInDim S100000x8 ![] bcast_S_S100000x8 (constant (F := Ideal) S_ .f32 0x00000000#32))
    (broadcastInDim S1000000x1 ![0] bcast_S1000000_S1000000x1_0 d)
    (Host.gather gather_S100000x8_S1000000x1_S1000000x8_1_0_n_n_0_1_18 x
      (broadcastInDim S1000000x1 ![0] bcast_S1000000_S1000000x1_0 (wrap s)))

/-- The neighbour sums of 64-column features. -/
def agg64 (h : FVec Ideal S100000x64 .f32) (s d : IArr S1000000) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (Host.gather gather_S100000x64_S1000000x1_S1000000x64_1_0_n_n_0_1_164 h
      (broadcastInDim S1000000x1 ![0] bcast_S1000000_S1000000x1_0 (wrap s)))

/-- The mean of the node features of each graph: the sums by graph id over the node counts, a count below one read as one. -/
def pool (h : FVec Ideal S100000x64 .f32) (bt : IArr S100000) : FVec Ideal S512x64 .f32 :=
  Host.divf (F := Ideal)
    (Host.scatterAdd (F := Ideal) scatter_S512x64_S100000x1_S100000x64_1_0_0_1
      (broadcastInDim S512x64 ![] bcast_S_S512x64 (constant (F := Ideal) S_ .f32 0x00000000#32))
      (broadcastInDim S100000x1 ![0] bcast_S100000_S100000x1_0 bt) h)
    (broadcastInDim S512x64 ![0, 1] bcast_S512x1_S512x64_0_1
      (broadcastInDim S512x1 ![0] bcast_S512_S512x1_0
        (maximumf
          (Host.scatterAdd (F := Ideal) scatter_S512_S100000x1_S100000_n_0_0_1
            (broadcastInDim S512 ![] bcast_S_S512 (constant (F := Ideal) S_ .f32 0x00000000#32))
            (broadcastInDim S100000x1 ![0] bcast_S100000_S100000x1_0 bt)
            (broadcastInDim S100000 ![] bcast_S_S100000 (constant (F := Ideal) S_ .f32 0x3F800000#32)))
          (broadcastInDim S512 ![] bcast_S_S512 (constant (F := Ideal) S_ .f32 0x3F800000#32)))))

/-- A 64-vector laid out as one row. -/
def row64 (b : FVec Ideal S64 .f32) : FVec Ideal S1x64 .f32 := broadcastInDim S1x64 ![1] bcast_S64_S1x64_1 b

/-- A 2-vector laid out as one row. -/
def row2 (b : FVec Ideal S2 .f32) : FVec Ideal S1x2 .f32 := broadcastInDim S1x2 ![1] bcast_S2_S1x2_1 b

/-- The first layer, from 8 to 64 columns, rectified. -/
def layer1 (x : FVec Ideal S100000x8 .f32) (s d : IArr S1000000) (wr : FVec Ideal S8x64 .f32) (b : FVec Ideal S64 .f32)
    (wo : FVec Ideal S8x64 .f32) : FVec Ideal S100000x64 .f32 :=
  mixRelu (agg8 x s d) x wr (row64 b) wo

/-- A rectified layer from 64 to 64 columns. -/
def layerR (h : FVec Ideal S100000x64 .f32) (s d : IArr S1000000) (wr : FVec Ideal S64x64 .f32) (b : FVec Ideal S64 .f32)
    (wo : FVec Ideal S64x64 .f32) : FVec Ideal S100000x64 .f32 :=
  mixRelu (agg64 h s d) h wr (row64 b) wo

/-- The last layer: no rectifier. -/
def layerL (h : FVec Ideal S100000x64 .f32) (s d : IArr S1000000) (wr : FVec Ideal S64x64 .f32) (b : FVec Ideal S64 .f32)
    (wo : FVec Ideal S64x64 .f32) : FVec Ideal S100000x64 .f32 :=
  mix (agg64 h s d) h wr (row64 b) wo

/-- The head: the graph means times the weights plus the bias row. -/
def head (h : FVec Ideal S100000x64 .f32) (bt : IArr S100000) (w : FVec Ideal S64x2 .f32) (b : FVec Ideal S2 .f32) :
    FVec Ideal S512x2 .f32 :=
  affine (pool h bt) w (row2 b)

/-- The whole network. -/
def net (x : FVec Ideal S100000x8 .f32) (ei : IArr S2x1000000) (bt : IArr S100000)
    (w3 : FVec Ideal S8x64 .f32) (b4 : FVec Ideal S64 .f32) (w5 : FVec Ideal S8x64 .f32)
    (w6 : FVec Ideal S64x64 .f32) (b7 : FVec Ideal S64 .f32) (w8 : FVec Ideal S64x64 .f32)
    (w9 : FVec Ideal S64x64 .f32) (b10 : FVec Ideal S64 .f32) (w11 : FVec Ideal S64x64 .f32)
    (w12 : FVec Ideal S64x64 .f32) (b13 : FVec Ideal S64 .f32) (w14 : FVec Ideal S64x64 .f32)
    (w15 : FVec Ideal S64x2 .f32) (b16 : FVec Ideal S2 .f32) : FVec Ideal S512x2 .f32 :=
  head (layerL (layerR (layerR (layer1 x (src ei) (dst ei) w3 b4 w5) (src ei) (dst ei) w6 b7 w8) (src ei) (dst ei) w9 b10 w11)
    (src ei) (dst ei) w12 b13 w14) bt w15 b16

end Cert.Net

end
-- ==== Proof.Region0.lean ====
/-
  Region 0 of the kernel program: the first rectified layer, from 8 to 64 columns, over blocks of 5000 node rows.

  Grid point t loads rows 5000 t … 5000 t + 4999 of the aggregate a and of the features h, the whole weight matrices and
  the whole bias row, and stores the layer of those blocks as rows 5000 t … of the output. A row of the layer depends on
  the same row of a and h only, so what point t writes back is block t of the layer of the WHOLE arrays; the twenty blocks
  tile the 100000 rows, so the output array ends as that layer.
-/
import proofs.«110120_j60421599920514_1_alg».proof.Proof.Gen.KernelIdeal.Frame
import proofs.«110120_j60421599920514_1_alg».proof.Proof.Spec

set_option maxRecDepth 16384

noncomputable section

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the layer of its loaded blocks: the two products into zero accumulators, the bias row broadcast
    down the rows, the maximum against the zero splat. -/
theorem pay_eq (x0 x1 : Vec Ideal S5000x8 .f32) (w0 w1 : Vec Ideal S8x64 .f32) (r : Vec Ideal S1x64 .f32) :
    k0_pay1 (F := Ideal) x0 x1 w0 w1 r = Cert.GraphConv.mixRelu (A := 5000) (K := 8) (C := 64) x0 x1 w0 r w1 := by
  have e0 : shapeCast S5000x8 x0 shapeCasts_S5000x8_S5000x8 = x0 := shapeCast_self x0 _
  refine (Cert.GraphConv.body_mixRelu (A := 5000) (K := 8) (C := 64) (shapeCast S5000x8 x0 shapeCasts_S5000x8_S5000x8) x1 w0 w1 r
    shapeCasts_S1x64_S1x64 broadcasts_S1x64_S5000x64 bitsLt_bf16_f32).trans ?_
  rw [e0]

/-- The printed index maps over the grid: windows 0, 1 and 5 move down the rows with the point, the weights and the bias
    row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the layer of the arrays as the region finds them. -/
theorem flushed_eq (c : Dev nD) (t : Fin cfg0.N) :
    (dat0 (F := Ideal) V c).flushed 5 t = ((cfg0.win 5).blk t).view.read (Elt Ideal)
      (Cert.GraphConv.mixRelu (A := 100000) (K := 8) (C := 64) (V c main_v13) (V c main_arg0) (V c main_arg3) (V c main_v14) (V c main_arg5)) := by
  show (cfg0.win 5).cut (grid0.coords t) ((dat0 (F := Ideal) V c).after 5 t) = _
  rw [after0_5]
  unfold out0_5
  rw [View.canon_unit_zero hz]
  simp only [View.ld_unit_zero (S := S5000x8) hz, View.ld_unit_zero (S := S8x64) hz, View.ld_unit_zero (S := S1x64) hz]
  obtain ⟨a0, a1, b0, b1, c0, c1, d0, d1, f0, f1, g0, g1⟩ := idx_facts t
  funext j
  refine (congrFun (pay_eq (iblk0 V c 0 t) (iblk0 V c 1 t) (iblk0 V c 2 t) (iblk0 V c 4 t) (iblk0 V c 3 t)) j).trans ?_
  refine Cert.GraphConv.mixRelu_at (A := 100000) (B := 5000) (K := 8) (C := 64) (V c main_v13) (V c main_arg0) (V c main_arg3) (V c main_v14) (V c main_arg5)
    (iblk0 V c 0 t) (iblk0 V c 1 t) (iblk0 V c 2 t) (iblk0 V c 3 t) (iblk0 V c 4 t) j (((cfg0.win 5).blk t).view.emb j) ?_ ?_ ?_ ?_ ?_ ?_
  · apply Fin.ext
    show win0_5.index t (1 : Fin 2) * 64 + 1 * (j 1).val = (j 1).val
    rw [g1]; omega
  · intro k
    show V c main_v13 (((cfg0.win 0).blk t).view.emb (ix2 (j 0) k)) = V c main_v13 _
    congr 1
    funext a; apply Fin.ext
    match a with
    | ⟨0, _⟩ => show win0_0.index t (0 : Fin 2) * 5000 + 1 * (j 0).val = win0_5.index t (0 : Fin 2) * 5000 + 1 * (j 0).val; rw [a0, g0]
    | ⟨1, _⟩ => show win0_0.index t (1 : Fin 2) * 8 + 1 * k.val = k.val; rw [a1]; omega
  · intro k
    show V c main_arg0 (((cfg0.win 1).blk t).view.emb (ix2 (j 0) k)) = V c main_arg0 _
    congr 1
    funext a; apply Fin.ext
    match a with
    | ⟨0, _⟩ => show win0_1.index t (0 : Fin 2) * 5000 + 1 * (j 0).val = win0_5.index t (0 : Fin 2) * 5000 + 1 * (j 0).val; rw [b0, g0]
    | ⟨1, _⟩ => show win0_1.index t (1 : Fin 2) * 8 + 1 * k.val = k.val; rw [b1]; omega
  · intro k q
    show V c main_arg3 (((cfg0.win 2).blk t).view.emb (ix2 k q)) = V c main_arg3 _
    congr 1
    funext a; apply Fin.ext
    match a with
    | ⟨0, _⟩ => show win0_2.index t (0 : Fin 2) * 8 + 1 * k.val = k.val; rw [c0]; omega
    | ⟨1, _⟩ => show win0_2.index t (1 : Fin 2) * 64 + 1 * q.val = q.val; rw [c1]; omega
  · intro q
    show V c main_v14 (((cfg0.win 3).blk t).view.emb (ix2 (0 : Fin 1) q)) = V c main_v14 _
    congr 1
    funext a; apply Fin.ext
    match a with
    | ⟨0, _⟩ => show win0_3.index t (0 : Fin 2) * 1 + 1 * 0 = 0; rw [d0]
    | ⟨1, _⟩ => show win0_3.index t (1 : Fin 2) * 64 + 1 * q.val = q.val; rw [d1]; omega
  · intro k q
    show V c main_arg5 (((cfg0.win 4).blk t).view.emb (ix2 k q)) = V c main_arg5 _
    congr 1
    funext a; apply Fin.ext
    match a with
    | ⟨0, _⟩ => show win0_4.index t (0 : Fin 2) * 8 + 1 * k.val = k.val; rw [f0]; omega
    | ⟨1, _⟩ => show win0_4.index t (1 : Fin 2) * 64 + 1 * q.val = q.val; rw [f1]; omega

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Every index of the output array is in some point's block: row r is in block r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, -, -, -, -, g0, g1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [g0]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [g1]; omega

/-- THE OUTPUT ARRAY after the region is the layer of the arrays as the region finds them. -/
theorem arr (c : Dev nD) :
    (dat0 (F := Ideal) V c).arrAt 5 cfg0.N
      = Cert.GraphConv.mixRelu (A := 100000) (K := 8) (C := 64) (V c main_v13) (V c main_arg0) (V c main_arg3) (V c main_v14) (V c main_arg5) :=
  (dat0 (F := Ideal) V c).arrAt_eq_of_cover 5 _ (fun t _ => flushed_eq V c t) (cover)

end Cert.KernelIdeal.Region0

end
-- ==== Proof.Region1.lean ====
/-
  Region 1 of the kernel program: a rectified layer over blocks of 5000 node rows.

  Grid point t loads rows 5000 t … 5000 t + 4999 of the aggregate a and of the features h, the whole weight matrices and
  the whole bias row, and stores the layer of those blocks as rows 5000 t … of the output. A row of the layer depends on
  the same row of a and h only, so what point t writes back is block t of the layer of the WHOLE arrays; the twenty blocks
  tile the 100000 rows, so the output array ends as that layer.
-/
import proofs.«110120_j60421599920514_1_alg».proof.Proof.Gen.KernelIdeal.Frame
import proofs.«110120_j60421599920514_1_alg».proof.Proof.Spec

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the layer of its loaded blocks: the two products into zero accumulators, the bias row broadcast
    down the rows, the maximum against the zero splat. -/
theorem pay_eq (x0 x1 : Vec Ideal S5000x64 .f32) (w0 w1 : Vec Ideal S64x64 .f32) (r : Vec Ideal S1x64 .f32) :
    k1_pay1 (F := Ideal) x0 x1 w0 w1 r = Cert.GraphConv.mixRelu (A := 5000) (K := 64) (C := 64) x0 x1 w0 r w1 := by
  have e0 : shapeCast S5000x64 x0 shapeCasts_S5000x64_S5000x64 = x0 := shapeCast_self x0 _
  have e1 : shapeCast S5000x64 x1 shapeCasts_S5000x64_S5000x64 = x1 := shapeCast_self x1 _
  refine (Cert.GraphConv.body_mixRelu (A := 5000) (K := 64) (C := 64) (shapeCast S5000x64 x0 shapeCasts_S5000x64_S5000x64) (shapeCast S5000x64 x1 shapeCasts_S5000x64_S5000x64) w0 w1 r
    shapeCasts_S1x64_S1x64 broadcasts_S1x64_S5000x64 bitsLt_bf16_f32).trans ?_
  rw [e0, e1]

/-- The printed index maps over the grid: windows 0, 1 and 5 move down the rows with the point, the weights and the bias
    row stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT t WRITES BACK is block t of the layer of the arrays as the region finds them. -/
theorem flushed_eq (c : Dev nD) (t : Fin cfg1.N) :
    (dat1 (F := Ideal) V c).flushed 5 t = ((cfg1.win 5).blk t).view.read (Elt Ideal)
      (Cert.GraphConv.mixRelu (A := 100000) (K := 64) (C := 64) (V c main_v25) (V c main_v15) (V c main_arg6) (V c main_v26) (V c main_arg8)) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨a0, a1, b0, b1, c0, c1, d0, d1, f0, f1, g0, g1⟩ := idx_facts t
  funext j
  refine (congrFun (pay_eq (iblk1 V c 0 t) (iblk1 V c 1 t) (iblk1 V c 2 t) (iblk1 V c 4 t) (iblk1 V c 3 t)) j).trans ?_
  refine Cert.GraphConv.mixRelu_at (A := 100000) (B := 5000) (K := 64) (C := 64) (V c main_v25) (V c main_v15) (V c main_arg6) (V c main_v26) (V c main_arg8)
    (iblk1 V c 0 t) (iblk1 V c 1 t) (iblk1 V c 2 t) (iblk1 V c 3 t) (iblk1 V c 4 t) j (((cfg1.win 5).blk t).view.emb j) ?_ ?_ ?_ ?_ ?_ ?_
  · apply Fin.ext
    show win1_5.index t (1 : Fin 2) * 64 + 1 * (j 1).val = (j 1).val
    rw [g1]; omega
  · intro k
    show V c main_v25 (((cfg1.win 0).blk t).view.emb (ix2 (j 0) k)) = V c main_v25 _
    congr 1
    funext a; apply Fin.ext
    match a with
    | ⟨0, _⟩ => show win1_0.index t (0 : Fin 2) * 5000 + 1 * (j 0).val = win1_5.index t (0 : Fin 2) * 5000 + 1 * (j 0).val; rw [a0, g0]
    | ⟨1, _⟩ => show win1_0.index t (1 : Fin 2) * 64 + 1 * k.val = k.val; rw [a1]; omega
  · intro k
    show V c main_v15 (((cfg1.win 1).blk t).view.emb (ix2 (j 0) k)) = V c main_v15 _
    congr 1
    funext a; apply Fin.ext
    match a with
    | ⟨0, _⟩ => show win1_1.index t (0 : Fin 2) * 5000 + 1 * (j 0).val = win1_5.index t (0 : Fin 2) * 5000 + 1 * (j 0).val; rw [b0, g0]
    | ⟨1, _⟩ => show win1_1.index t (1 : Fin 2) * 64 + 1 * k.val = k.val; rw [b1]; omega
  · intro k q
    show V c main_arg6 (((cfg1.win 2).blk t).view.emb (ix2 k q)) = V c main_arg6 _
    congr 1
    funext a; apply Fin.ext
    match a with
    | ⟨0, _⟩ => show win1_2.index t (0 : Fin 2) * 64 + 1 * k.val = k.val; rw [c0]; omega
    | ⟨1, _⟩ => show win1_2.index t (1 : Fin 2) * 64 + 1 * q.val = q.val; rw [c1]; omega
  · intro q
    show V c main_v26 (((cfg1.win 3).blk t).view.emb (ix2 (0 : Fin 1) q)) = V c main_v26 _
    congr 1
    funext a; apply Fin.ext
    match a with
    | ⟨0, _⟩ => show win1_3.index t (0 : Fin 2) * 1 + 1 * 0 = 0; rw [d0]
    | ⟨1, _⟩ => show win1_3.index t (1 : Fin 2) * 64 + 1 * q.val = q.val; rw [d1]; omega
  · intro k q
    show V c main_arg8 (((cfg1.win 4).blk t).view.emb (ix2 k q)) = V c main_arg8 _
    congr 1
    funext a; apply Fin.ext
    match a with
    | ⟨0, _⟩ => show win1_4.index t (0 : Fin 2) * 64 + 1 * k.val = k.val; rw [f0]; omega
    | ⟨1, _⟩ => show win1_4.index t (1 : Fin 2) * 64 + 1 * q.val = q.val; rw [f1]; omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- Every index of the output array is in some point's block: row r is in block r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, -, g0, g1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [g0]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [g1]; omega

/-- THE OUTPUT ARRAY after the region is the layer of the arrays as the region finds them. -/
theorem arr (c : Dev nD) :
    (dat1 (F := Ideal) V c).arrAt 5 cfg1.N
      = Cert.GraphConv.mixRelu (A := 100000) (K := 64) (C := 64) (V c main_v25) (V c main_v15) (V c main_arg6) (V c main_v26) (V c main_arg8) :=
  (dat1 (F := Ideal) V c).arrAt_eq_of_cover 5 _ (fun t _ => flushed_eq V c t) (cover)

end Cert.KernelIdeal.Region1

end
-- ==== Proof.Region2.lean ====
/-
  Region 2 of the kernel program: a rectified layer over blocks of 5000 node rows.

  Grid point t loads rows 5000 t … 5000 t + 4999 of the aggregate a and of the features h, the whole weight matrices and
  the whole bias row, and stores the layer of those blocks as rows 5000 t … of the output. A row of the layer depends on
  the same row of a and h only, so what point t writes back is block t of the layer of the WHOLE arrays; the twenty blocks
  tile the 100000 rows, so the output array ends as that layer.
-/
import proofs.«110120_j60421599920514_1_alg».proof.Proof.Gen.KernelIdeal.Frame
import proofs.«110120_j60421599920514_1_alg».proof.Proof.Spec

set_option maxRecDepth 16384

noncomputable section

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the layer of its loaded blocks: the two products into zero accumulators, the bias row broadcast
    down the rows, the maximum against the zero splat. -/
theorem pay_eq (x0 x1 : Vec Ideal S5000x64 .f32) (w0 w1 : Vec Ideal S64x64 .f32) (r : Vec Ideal S1x64 .f32) :
    k2_pay1 (F := Ideal) x0 x1 w0 w1 r = Cert.GraphConv.mixRelu (A := 5000) (K := 64) (C := 64) x0 x1 w0 r w1 := by
  have e0 : shapeCast S5000x64 x0 shapeCasts_S5000x64_S5000x64 = x0 := shapeCast_self x0 _
  have e1 : shapeCast S5000x64 x1 shapeCasts_S5000x64_S5000x64 = x1 := shapeCast_self x1 _
  refine (Cert.GraphConv.body_mixRelu (A := 5000) (K := 64) (C := 64) (shapeCast S5000x64 x0 shapeCasts_S5000x64_S5000x64) (shapeCast S5000x64 x1 shapeCasts_S5000x64_S5000x64) w0 w1 r
    shapeCasts_S1x64_S1x64 broadcasts_S1x64_S5000x64 bitsLt_bf16_f32).trans ?_
  rw [e0, e1]

/-- The printed index maps over the grid: windows 0, 1 and 5 move down the rows with the point, the weights and the bias
    row stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT t WRITES BACK is block t of the layer of the arrays as the region finds them. -/
theorem flushed_eq (c : Dev nD) (t : Fin cfg2.N) :
    (dat2 (F := Ideal) V c).flushed 5 t = ((cfg2.win 5).blk t).view.read (Elt Ideal)
      (Cert.GraphConv.mixRelu (A := 100000) (K := 64) (C := 64) (V c main_v37) (V c main_v27) (V c main_arg9) (V c main_v38) (V c main_arg11)) := by
  show (cfg2.win 5).cut (grid2.coords t) ((dat2 (F := Ideal) V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨a0, a1, b0, b1, c0, c1, d0, d1, f0, f1, g0, g1⟩ := idx_facts t
  funext j
  refine (congrFun (pay_eq (iblk2 V c 0 t) (iblk2 V c 1 t) (iblk2 V c 2 t) (iblk2 V c 4 t) (iblk2 V c 3 t)) j).trans ?_
  refine Cert.GraphConv.mixRelu_at (A := 100000) (B := 5000) (K := 64) (C := 64) (V c main_v37) (V c main_v27) (V c main_arg9) (V c main_v38) (V c main_arg11)
    (iblk2 V c 0 t) (iblk2 V c 1 t) (iblk2 V c 2 t) (iblk2 V c 3 t) (iblk2 V c 4 t) j (((cfg2.win 5).blk t).view.emb j) ?_ ?_ ?_ ?_ ?_ ?_
  · apply Fin.ext
    show win2_5.index t (1 : Fin 2) * 64 + 1 * (j 1).val = (j 1).val
    rw [g1]; omega
  · intro k
    show V c main_v37 (((cfg2.win 0).blk t).view.emb (ix2 (j 0) k)) = V c main_v37 _
    congr 1
    funext a; apply Fin.ext
    match a with
    | ⟨0, _⟩ => show win2_0.index t (0 : Fin 2) * 5000 + 1 * (j 0).val = win2_5.index t (0 : Fin 2) * 5000 + 1 * (j 0).val; rw [a0, g0]
    | ⟨1, _⟩ => show win2_0.index t (1 : Fin 2) * 64 + 1 * k.val = k.val; rw [a1]; omega
  · intro k
    show V c main_v27 (((cfg2.win 1).blk t).view.emb (ix2 (j 0) k)) = V c main_v27 _
    congr 1
    funext a; apply Fin.ext
    match a with
    | ⟨0, _⟩ => show win2_1.index t (0 : Fin 2) * 5000 + 1 * (j 0).val = win2_5.index t (0 : Fin 2) * 5000 + 1 * (j 0).val; rw [b0, g0]
    | ⟨1, _⟩ => show win2_1.index t (1 : Fin 2) * 64 + 1 * k.val = k.val; rw [b1]; omega
  · intro k q
    show V c main_arg9 (((cfg2.win 2).blk t).view.emb (ix2 k q)) = V c main_arg9 _
    congr 1
    funext a; apply Fin.ext
    match a with
    | ⟨0, _⟩ => show win2_2.index t (0 : Fin 2) * 64 + 1 * k.val = k.val; rw [c0]; omega
    | ⟨1, _⟩ => show win2_2.index t (1 : Fin 2) * 64 + 1 * q.val = q.val; rw [c1]; omega
  · intro q
    show V c main_v38 (((cfg2.win 3).blk t).view.emb (ix2 (0 : Fin 1) q)) = V c main_v38 _
    congr 1
    funext a; apply Fin.ext
    match a with
    | ⟨0, _⟩ => show win2_3.index t (0 : Fin 2) * 1 + 1 * 0 = 0; rw [d0]
    | ⟨1, _⟩ => show win2_3.index t (1 : Fin 2) * 64 + 1 * q.val = q.val; rw [d1]; omega
  · intro k q
    show V c main_arg11 (((cfg2.win 4).blk t).view.emb (ix2 k q)) = V c main_arg11 _
    congr 1
    funext a; apply Fin.ext
    match a with
    | ⟨0, _⟩ => show win2_4.index t (0 : Fin 2) * 64 + 1 * k.val = k.val; rw [f0]; omega
    | ⟨1, _⟩ => show win2_4.index t (1 : Fin 2) * 64 + 1 * q.val = q.val; rw [f1]; omega

/-- An index of the output array is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v39).slice (win2_5.rect t)).set ↔ _
  rw [View.set_slice_whole, Rect.mem_set_unit]
  exact Iff.rfl

/-- Every index of the output array is in some point's block: row r is in block r / 5000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, -, -, -, -, g0, g1⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [g0]
    show (i 0).val / 5000 * 5000 ≤ (i 0).val ∧ (i 0).val < (i 0).val / 5000 * 5000 + 5000
    omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [g1]; omega

/-- THE OUTPUT ARRAY after the region is the layer of the arrays as the region finds them. -/
theorem arr (c : Dev nD) :
    (dat2 (F := Ideal) V c).arrAt 5 cfg2.N
      = Cert.GraphConv.mixRelu (A := 100000) (K := 64) (C := 64) (V c main_v37) (V c main_v27) (V c main_arg9) (V c main_v38) (V c main_arg11) :=
  (dat2 (F := Ideal) V c).arrAt_eq_of_cover 5 _ (fun t _ => flushed_eq V c t) (cover)

end Cert.KernelIdeal.Region2

end
-- ==== Proof.Region3.lean ====
/-
  Region 3 of the kernel program: the last (not rectified) layer over blocks of 5000 node rows.

  Grid point t loads rows 5000 t … 5000 t + 4999 of the aggregate a and of the features h, the whole weight matrices and
  the whole bias row, and stores the layer of those blocks as rows 5000 t … of the output. A row of the layer depends on
  the same row of a and h only, so what point t writes back is block t of the layer of the WHOLE arrays; the twenty blocks
  tile the 100000 rows, so the output array ends as that layer.
-/
import proofs.«110120_j60421599920514_1_alg».proof.Proof.Gen.KernelIdeal.Frame
import proofs.«110120_j60421599920514_1_alg».proof.Proof.Spec

set_option maxRecDepth 16384

noncomputable section

namespace Cert.KernelIdeal.Region3

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the layer of its loaded blocks: the two products into zero accumulators, the bias row broadcast
    down the rows. -/
theorem pay_eq (x0 x1 : Vec Ideal S5000x64 .f32) (w0 w1 : Vec Ideal S64x64 .f32) (r : Vec Ideal S1x64 .f32) :
    k3_pay1 (F := Ideal) x0 x1 w0 w1 r = Cert.GraphConv.mix (A := 5000) (K := 64) (C := 64) x0 x1 w0 r w1 := by
  have e0 : shapeCast S5000x64 x0 shapeCasts_S5000x64_S5000x64 = x0 := shapeCast_self x0 _
  have e1 : shapeCast S5000x64 x1 shapeCasts_S5000x64_S5000x64 = x1 := shapeCast_self x1 _
  refine (Cert.GraphConv.body_mix (A := 5000) (K := 64) (C := 64) (shapeCast S5000x64 x0 shapeCasts_S5000x64_S5000x64) (shapeCast S5000x64 x1 shapeCasts_S5000x64_S5000x64) w0 w1 r
    shapeCasts_S1x64_S1x64 broadcasts_S1x64_S5000x64 bitsLt_bf16_f32).trans ?_
  rw [e0, e1]

/-- The printed index maps over the grid: windows 0, 1 and 5 move down the rows with the point, the weights and the bias
    row stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT t WRITES BACK is block t of the layer of the arrays as the region finds them. -/
theorem flushed_eq (c : Dev nD) (t : Fin cfg3.N) :
    (dat3 (F := Ideal) V c).flushed 5 t = ((cfg3.win 5).blk t).view.read (Elt Ideal)
      (Cert.GraphConv.mix (A := 100000) (K := 64) (C := 64) (V c main_v49) (V c main_v39) (V c main_arg12) (V c main_v50) (V c main_arg14)) := by
  show (cfg3.win 5).cut (grid3.coords t) ((dat3 (F := Ideal) V c).after 5 t) = _
  rw [after3_5]
  unfold out3_5
  rw [View.canon_unit_zero hz]
  simp only [View.ld_unit_zero (S := S5000x64) hz, View.ld_unit_zero (S := S64x64) hz, View.ld_unit_zero (S := S1x64) hz]
  obtain ⟨a0, a1, b0, b1, c0, c1, d0, d1, f0, f1, g0, g1⟩ := idx_facts t
  funext j
  refine (congrFun (pay_eq (iblk3 V c 0 t) (iblk3 V c 1 t) (iblk3 V c 2 t) (iblk3 V c 4 t) (iblk3 V c 3 t)) j).trans ?_
  refine Cert.GraphConv.mix_at (A := 100000) (B := 5000) (K := 64) (C := 64) (V c main_v49) (V c main_v39) (V c main_arg12) (V c main_v50) (V c main_arg14)
    (iblk3 V c 0 t) (iblk3 V c 1 t) (iblk3 V c 2 t) (iblk3 V c 3 t) (iblk3 V c 4 t) j (((cfg3.win 5).blk t).view.emb j) ?_ ?_ ?_ ?_ ?_ ?_
  · apply Fin.ext
    show win3_5.index t (1 : Fin 2) * 64 + 1 * (j 1).val = (j 1).val
    rw [g1]; omega
  · intro k
    show V c main_v49 (((cfg3.win 0).blk t).view.emb (ix2 (j 0) k)) = V c main_v49 _
    congr 1
    funext a; apply Fin.ext
    match a with
    | ⟨0, _⟩ => show win3_0.index t (0 : Fin 2) * 5000 + 1 * (j 0).val = win3_5.index t (0 : Fin 2) * 5000 + 1 * (j 0).val; rw [a0, g0]
    | ⟨1, _⟩ => show win3_0.index t (1 : Fin 2) * 64 + 1 * k.val = k.val; rw [a1]; omega
  · intro k
    show V c main_v39 (((cfg3.win 1).blk t).view.emb (ix2 (j 0) k)) = V c main_v39 _
    congr 1
    funext a; apply Fin.ext
    match a with
    | ⟨0, _⟩ => show win3_1.index t (0 : Fin 2) * 5000 + 1 * (j 0).val = win3_5.index t (0 : Fin 2) * 5000 + 1 * (j 0).val; rw [b0, g0]
    | ⟨1, _⟩ => show win3_1.index t (1 : Fin 2) * 64 + 1 * k.val = k.val; rw [b1]; omega
  · intro k q
    show V c main_arg12 (((cfg3.win 2).blk t).view.emb (ix2 k q)) = V c main_arg12 _
    congr 1
    funext a; apply Fin.ext
    match a with
    | ⟨0, _⟩ => show win3_2.index t (0 : Fin 2) * 64 + 1 * k.val = k.val; rw [c0]; omega
    | ⟨1, _⟩ => show win3_2.index t (1 : Fin 2) * 64 + 1 * q.val = q.val; rw [c1]; omega
  · intro q
    show V c main_v50 (((cfg3.win 3).blk t).view.emb (ix2 (0 : Fin 1) q)) = V c main_v50 _
    congr 1
    funext a; apply Fin.ext
    match a with
    | ⟨0, _⟩ => show win3_3.index t (0 : Fin 2) * 1 + 1 * 0 = 0; rw [d0]
    | ⟨1, _⟩ => show win3_3.index t (1 : Fin 2) * 64 + 1 * q.val = q.val; rw [d1]; omega
  · intro k q
    show V c main_arg14 (((cfg3.win 4).blk t).view.emb (ix2 k q)) = V c main_arg14 _
    congr 1
    funext a; apply Fin.ext
    match a with
    | ⟨0, _⟩ => show win3_4.index t (0 : Fin 2) * 64 + 1 * k.val = k.val; rw [f0]; omega
    | ⟨1, _⟩ => show win3_4.index t (1 : Fin 2) * 64 + 1 * q.val = q.val; rw [f1]; omega

/-- An index of the output array is in point t's block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v51).slice (win3_5.rect t)).set ↔ _
  rw [View.set_slice_whole, Rect.mem_set_unit]
  exact Iff.rfl

/-- Every index of the output array is in some point's block: row r is in block r / 5000. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨-, -, -, -, -, -, -, -, -, -, g0, g1⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [g0]
    show (i 0).val / 5000 * 5000 ≤ (i 0).val ∧ (i 0).val < (i 0).val / 5000 * 5000 + 5000
    omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [g1]; omega

/-- THE OUTPUT ARRAY after the region is the layer of the arrays as the region finds them. -/
theorem arr (c : Dev nD) :
    (dat3 (F := Ideal) V c).arrAt 5 cfg3.N
      = Cert.GraphConv.mix (A := 100000) (K := 64) (C := 64) (V c main_v49) (V c main_v39) (V c main_arg12) (V c main_v50) (V c main_arg14) :=
  (dat3 (F := Ideal) V c).arrAt_eq_of_cover 5 _ (fun t _ => flushed_eq V c t) (cover)

end Cert.KernelIdeal.Region3

end
-- ==== Proof.Region4.lean ====
/-
  Region 4 of the kernel program: the linear head, one grid point.

  The one point loads the whole 512 x 64 matrix of graph means, the whole weight matrix and the whole bias row, and
  stores their product plus the row as the whole 512 x 2 output: the output array ends as that affine function of the
  arrays as the region finds them.
-/
import proofs.«110120_j60421599920514_1_alg».proof.Proof.Gen.KernelIdeal.Frame
import proofs.«110120_j60421599920514_1_alg».proof.Proof.Spec

set_option maxRecDepth 16384

noncomputable section

namespace Cert.KernelIdeal.Region4

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's payload is the affine function of its loaded blocks: the product into a zero accumulator plus the bias row
    broadcast down the rows. -/
theorem pay_eq (x0 : Vec Ideal S512x64 .f32) (w : Vec Ideal S64x2 .f32) (r : Vec Ideal S1x2 .f32) :
    k4_pay1 (F := Ideal) x0 w r = Cert.Gcn.affine (A := 512) (K := 64) (C := 2) x0 w r := by
  have e0 : shapeCast S512x64 x0 shapeCasts_S512x64_S512x64 = x0 := shapeCast_self x0 _
  refine (Cert.GraphConv.body_affine (A := 512) (K := 64) (C := 2) (shapeCast S512x64 x0 shapeCasts_S512x64_S512x64) w r
    shapeCasts_S1x2_S1x2 broadcasts_S1x2_S512x2 bitsLt_bf16_f32).trans ?_
  rw [e0]

/-- The printed index maps at the one grid point: every window is its whole array. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- WHAT THE POINT WRITES BACK is the (one) block of the affine function of the arrays as the region finds them. -/
theorem flushed_eq (c : Dev nD) (t : Fin cfg4.N) :
    (dat4 (F := Ideal) V c).flushed 3 t = ((cfg4.win 3).blk t).view.read (Elt Ideal)
      (Cert.Gcn.affine (A := 512) (K := 64) (C := 2) (V c main_v63) (V c main_arg15) (V c main_v64)) := by
  show (cfg4.win 3).cut (grid4.coords t) ((dat4 (F := Ideal) V c).after 3 t) = _
  rw [after4_3]
  unfold out4_3
  rw [View.canon_unit_zero hz]
  simp only [View.ld_unit_zero (S := S512x64) hz, View.ld_unit_zero (S := S64x2) hz, View.ld_unit_zero (S := S1x2) hz]
  obtain ⟨a0, a1, b0, b1, c0, c1, g0, g1⟩ := idx_facts t
  funext j
  refine (congrFun (pay_eq (iblk4 V c 0 t) (iblk4 V c 1 t) (iblk4 V c 2 t)) j).trans ?_
  refine Cert.GraphConv.affine_at (A := 512) (B := 512) (K := 64) (C := 2) (V c main_v63) (V c main_arg15) (V c main_v64)
    (iblk4 V c 0 t) (iblk4 V c 1 t) (iblk4 V c 2 t) j (((cfg4.win 3).blk t).view.emb j) ?_ ?_ ?_ ?_
  · apply Fin.ext
    show win4_3.index t (1 : Fin 2) * 2 + 1 * (j 1).val = (j 1).val
    rw [g1]; omega
  · intro k
    show V c main_v63 (((cfg4.win 0).blk t).view.emb (ix2 (j 0) k)) = V c main_v63 _
    congr 1
    funext a; apply Fin.ext
    match a with
    | ⟨0, _⟩ => show win4_0.index t (0 : Fin 2) * 512 + 1 * (j 0).val = win4_3.index t (0 : Fin 2) * 512 + 1 * (j 0).val; rw [a0, g0]
    | ⟨1, _⟩ => show win4_0.index t (1 : Fin 2) * 64 + 1 * k.val = k.val; rw [a1]; omega
  · intro k q
    show V c main_arg15 (((cfg4.win 1).blk t).view.emb (ix2 k q)) = V c main_arg15 _
    congr 1
    funext a; apply Fin.ext
    match a with
    | ⟨0, _⟩ => show win4_1.index t (0 : Fin 2) * 64 + 1 * k.val = k.val; rw [b0]; omega
    | ⟨1, _⟩ => show win4_1.index t (1 : Fin 2) * 2 + 1 * q.val = q.val; rw [b1]; omega
  · intro q
    show V c main_v64 (((cfg4.win 2).blk t).view.emb (ix2 (0 : Fin 1) q)) = V c main_v64 _
    congr 1
    funext a; apply Fin.ext
    match a with
    | ⟨0, _⟩ => show win4_2.index t (0 : Fin 2) * 1 + 1 * 0 = 0; rw [c0]
    | ⟨1, _⟩ => show win4_2.index t (1 : Fin 2) * 2 + 1 * q.val = q.val; rw [c1]; omega

/-- An index of the output array is in the point's block iff each coordinate is in the block's range on its axis. -/
theorem mem_blk (t : Fin cfg4.N) (i : S512x2.Idx) :
    i ∈ ((cfg4.win 3).blk t).view.set ↔ ∀ a : Fin 2, win4_3.index t a * S512x2.size a ≤ (i a).val ∧ (i a).val < win4_3.index t a * S512x2.size a + S512x2.size a := by
  show i ∈ ((View.whole main_v65).slice (win4_3.rect t)).set ↔ _
  rw [View.set_slice_whole, Rect.mem_set_unit]
  exact Iff.rfl

/-- Every index of the output array is in the one point's block. -/
theorem cover (i : S512x2.Idx) :
    ∃ t : Fin cfg4.N, (cfg4.win 3).flush t = true ∧ i ∈ ((cfg4.win 3).blk t).view.set := by
  have hi0 : (i 0).val < 512 := (i 0).isLt
  have hi1 : (i 1).val < 2 := (i 1).isLt
  have hN : cfg4.N = 1 := N_4
  have ht : 0 < cfg4.N := by rw [hN]; omega
  obtain ⟨-, -, -, -, -, -, g0, g1⟩ := idx_facts ⟨0, ht⟩
  refine ⟨⟨0, ht⟩, flush4_3 _, ?_⟩
  rw [mem_blk]
  intro a
  match a with
  | ⟨0, _⟩ =>
    show win4_3.index ⟨0, ht⟩ (0 : Fin 2) * 512 ≤ (i 0).val ∧ (i 0).val < win4_3.index ⟨0, ht⟩ (0 : Fin 2) * 512 + 512
    rw [g0]; omega
  | ⟨1, _⟩ =>
    show win4_3.index ⟨0, ht⟩ (1 : Fin 2) * 2 ≤ (i 1).val ∧ (i 1).val < win4_3.index ⟨0, ht⟩ (1 : Fin 2) * 2 + 2
    rw [g1]; omega

/-- THE OUTPUT ARRAY after the region is the affine function of the arrays as the region finds them. -/
theorem arr (c : Dev nD) :
    (dat4 (F := Ideal) V c).arrAt 3 cfg4.N
      = Cert.Gcn.affine (A := 512) (K := 64) (C := 2) (V c main_v63) (V c main_arg15) (V c main_v64) :=
  (dat4 (F := Ideal) V c).arrAt_eq_of_cover 3 _ (fun t _ => flushed_eq V c t) (cover)

end Cert.KernelIdeal.Region4

end
-- ==== Proof.KernelValue.lean ====
/-
  The kernel program's result as the network function of the argument arrays: the buffer contents are followed from the
  launch through the five host stretches and the five regions.
-/
import proofs.«110120_j60421599920514_1_alg».proof.Proof.Gen.KernelIdeal.Frame
import proofs.«110120_j60421599920514_1_alg».proof.Proof.KernelRun
import proofs.«110120_j60421599920514_1_alg».proof.Proof.Shared
import proofs.«110120_j60421599920514_1_alg».proof.Proof.Region0
import proofs.«110120_j60421599920514_1_alg».proof.Proof.Region1
import proofs.«110120_j60421599920514_1_alg».proof.Proof.Region2
import proofs.«110120_j60421599920514_1_alg».proof.Proof.Region3
import proofs.«110120_j60421599920514_1_alg».proof.Proof.Region4

set_option maxRecDepth 16384

noncomputable section

namespace Cert.KernelIdeal.NetValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The network of the launch contents of the arguments, at the result buffer's type. -/
def out (c : Dev nD) : Buf (Elt Ideal) ((c.tc : Thread nD τ).loc main_v65) :=
  Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

/-! ## Reading one buffer across a boundary

A host stretch leaves a buffer that none of its operations writes as it was; a region leaves a buffer that is none of
its arrays as it was. Both are stated for an arbitrary buffer, the side conditions being decided where a lemma is used. -/

/-- Closes "no operation of this host stretch writes the buffer" for a literal buffer. -/
local macro "unwritten" : tactic =>
  `(tactic| (
      refine List.forall_iff_forall_mem.mp ?_
      simp only [hostOps0, hostOps1, hostOps2, hostOps3, hostOps4, List.Forall, StableHlo.nullary_writes,
        StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The launch contents of a buffer of core `c`. -/
abbrev X (c : Dev nD) (b : Ref sig .tc) : Buf (Elt Ideal) ((c.tc : Thread nD τ).loc b) := m ((c.tc : Thread nD τ).loc b)

section Launched

variable (c : Dev nD) (b : Ref sig .tc)
variable (h0 : ∀ op ∈ (hostOps0 (F := Ideal)), Proc.devRef (τ := τ) .tc b ∉ op.writes) (r0 : ∀ w, Pipeline.arrRef spec0 w ≠ b)
variable (h1 : ∀ op ∈ (hostOps1 (F := Ideal)), Proc.devRef (τ := τ) .tc b ∉ op.writes) (r1 : ∀ w, Pipeline.arrRef spec1 w ≠ b)
variable (h2 : ∀ op ∈ (hostOps2 (F := Ideal)), Proc.devRef (τ := τ) .tc b ∉ op.writes) (r2 : ∀ w, Pipeline.arrRef spec2 w ≠ b)
variable (h3 : ∀ op ∈ (hostOps3 (F := Ideal)), Proc.devRef (τ := τ) .tc b ∉ op.writes) (r3 : ∀ w, Pipeline.arrRef spec3 w ≠ b)
variable (h4 : ∀ op ∈ (hostOps4 (F := Ideal)), Proc.devRef (τ := τ) .tc b ∉ op.writes)

include h0 in
/-- A buffer written by nothing up to a boundary holds its launch contents there. -/
theorem launched1 : W1 (F := Ideal) m ρ c (Proc.devRef .tc b) = X m c b :=
  StableHlo.after_of_forall_not_mem _ _ h0
include h0 r0 in
theorem launched2 : W2 (F := Ideal) m ρ c (Proc.devRef .tc b) = X m c b :=
  (W2_of_ne m ρ c b r0).trans (launched1 m ρ c b h0)
include h0 r0 h1 in
theorem launched3 : W3 (F := Ideal) m ρ c (Proc.devRef .tc b) = X m c b :=
  (StableHlo.after_of_forall_not_mem _ _ h1).trans (launched2 m ρ c b h0 r0)
include h0 r0 h1 r1 in
theorem launched4 : W4 (F := Ideal) m ρ c (Proc.devRef .tc b) = X m c b :=
  (W4_of_ne m ρ c b r1).trans (launched3 m ρ c b h0 r0 h1)
include h0 r0 h1 r1 h2 in
theorem launched5 : W5 (F := Ideal) m ρ c (Proc.devRef .tc b) = X m c b :=
  (StableHlo.after_of_forall_not_mem _ _ h2).trans (launched4 m ρ c b h0 r0 h1 r1)
include h0 r0 h1 r1 h2 r2 in
theorem launched6 : W6 (F := Ideal) m ρ c (Proc.devRef .tc b) = X m c b :=
  (W6_of_ne m ρ c b r2).trans (launched5 m ρ c b h0 r0 h1 r1 h2)
include h0 r0 h1 r1 h2 r2 h3 in
theorem launched7 : W7 (F := Ideal) m ρ c (Proc.devRef .tc b) = X m c b :=
  (StableHlo.after_of_forall_not_mem _ _ h3).trans (launched6 m ρ c b h0 r0 h1 r1 h2 r2)
include h0 r0 h1 r1 h2 r2 h3 r3 in
theorem launched8 : W8 (F := Ideal) m ρ c (Proc.devRef .tc b) = X m c b :=
  (W8_of_ne m ρ c b r3).trans (launched7 m ρ c b h0 r0 h1 r1 h2 r2 h3)
include h0 r0 h1 r1 h2 r2 h3 r3 h4 in
theorem launched9 : W9 (F := Ideal) m ρ c (Proc.devRef .tc b) = X m c b :=
  (StableHlo.after_of_forall_not_mem _ _ h4).trans (launched8 m ρ c b h0 r0 h1 r1 h2 r2 h3 r3)

include r0 in
/-- A buffer that the first host stretch wrote and nothing after it: its contents after that stretch, later on. -/
theorem carried2 : W2 (F := Ideal) m ρ c (Proc.devRef .tc b) = W1 m ρ c (Proc.devRef .tc b) :=
  W2_of_ne m ρ c b r0
include r0 h1 r1 in
theorem carried4 : W4 (F := Ideal) m ρ c (Proc.devRef .tc b) = W1 m ρ c (Proc.devRef .tc b) :=
  (W4_of_ne m ρ c b r1).trans ((StableHlo.after_of_forall_not_mem _ _ h1).trans (carried2 m ρ c b r0))
include r0 h1 r1 h2 r2 in
theorem carried6 : W6 (F := Ideal) m ρ c (Proc.devRef .tc b) = W1 m ρ c (Proc.devRef .tc b) :=
  (W6_of_ne m ρ c b r2).trans ((StableHlo.after_of_forall_not_mem _ _ h2).trans (carried4 m ρ c b r0 h1 r1))

end Launched

/-! ## What the host stretches write, from any entry contents

The operations are the network's own irregular steps with the same dimension records, so each written buffer is the
named step of the buffers read; the bias vector recast as a row is the vector broadcast along the new axis. -/

section Host

variable (V0 : Valuation τ sig (Elt Ideal))

theorem host0_v1 : StableHlo.after hostOps0 V0 (Proc.devRef .tc main_v1) = Cert.Net.src (V0 (Proc.devRef .tc main_arg1)) := by
  after_results_simp
  rfl

theorem host0_v3 : StableHlo.after hostOps0 V0 (Proc.devRef .tc main_v3) = Cert.Net.dst (V0 (Proc.devRef .tc main_arg1)) := by
  after_results_simp
  rfl

theorem host0_v13 : StableHlo.after hostOps0 V0 (Proc.devRef .tc main_v13)
    = Cert.Net.agg8 (V0 (Proc.devRef .tc main_arg0)) (Cert.Net.src (V0 (Proc.devRef .tc main_arg1))) (Cert.Net.dst (V0 (Proc.devRef .tc main_arg1))) := by
  after_results_simp
  unfold Cert.Net.agg8 Cert.Net.wrap Cert.Net.src Cert.Net.dst
  rfl

theorem host0_v14 : StableHlo.after hostOps0 V0 (Proc.devRef .tc main_v14) = Cert.Net.row64 (V0 (Proc.devRef .tc main_arg4)) := by
  after_results
  exact Cert.Gcn.rowCast_eq_rowBcast (C := 64) _ _ _

theorem host1_v25 : StableHlo.after hostOps1 V0 (Proc.devRef .tc main_v25)
    = Cert.Net.agg64 (V0 (Proc.devRef .tc main_v15)) (V0 (Proc.devRef .tc main_v1)) (V0 (Proc.devRef .tc main_v3)) := by
  after_results_simp
  unfold Cert.Net.agg64 Cert.Net.wrap
  rfl

theorem host1_v26 : StableHlo.after hostOps1 V0 (Proc.devRef .tc main_v26) = Cert.Net.row64 (V0 (Proc.devRef .tc main_arg7)) := by
  after_results
  exact Cert.Gcn.rowCast_eq_rowBcast (C := 64) _ _ _

theorem host2_v37 : StableHlo.after hostOps2 V0 (Proc.devRef .tc main_v37)
    = Cert.Net.agg64 (V0 (Proc.devRef .tc main_v27)) (V0 (Proc.devRef .tc main_v1)) (V0 (Proc.devRef .tc main_v3)) := by
  after_results_simp
  unfold Cert.Net.agg64 Cert.Net.wrap
  rfl

theorem host2_v38 : StableHlo.after hostOps2 V0 (Proc.devRef .tc main_v38) = Cert.Net.row64 (V0 (Proc.devRef .tc main_arg10)) := by
  after_results
  exact Cert.Gcn.rowCast_eq_rowBcast (C := 64) _ _ _

theorem host3_v49 : StableHlo.after hostOps3 V0 (Proc.devRef .tc main_v49)
    = Cert.Net.agg64 (V0 (Proc.devRef .tc main_v39)) (V0 (Proc.devRef .tc main_v1)) (V0 (Proc.devRef .tc main_v3)) := by
  after_results_simp
  unfold Cert.Net.agg64 Cert.Net.wrap
  rfl

theorem host3_v50 : StableHlo.after hostOps3 V0 (Proc.devRef .tc main_v50) = Cert.Net.row64 (V0 (Proc.devRef .tc main_arg13)) := by
  after_results
  exact Cert.Gcn.rowCast_eq_rowBcast (C := 64) _ _ _

theorem host4_v63 : StableHlo.after hostOps4 V0 (Proc.devRef .tc main_v63)
    = Cert.Net.pool (V0 (Proc.devRef .tc main_v51)) (V0 (Proc.devRef .tc main_arg2)) := by
  after_results_simp
  unfold Cert.Net.pool
  rfl

theorem host4_v64 : StableHlo.after hostOps4 V0 (Proc.devRef .tc main_v64) = Cert.Net.row2 (V0 (Proc.devRef .tc main_arg16)) := by
  after_results
  exact Cert.Gcn.rowCast_eq_rowBcast (C := 2) _ _ _

end Host

/-! ## The boundaries, one after the other -/

section Run

variable (c : Dev nD)

/-- The edges' sources and destinations, of the launch contents of the edge list. -/
def srcOf : Cert.Net.IArr Cert.ReferenceIdeal.S1000000 := Cert.Net.src (X m c main_arg1)
def dstOf : Cert.Net.IArr Cert.ReferenceIdeal.S1000000 := Cert.Net.dst (X m c main_arg1)

/-- The node features after each of the four layers, of the launch contents of the arguments. -/
def h1 : FVec Ideal Cert.ReferenceIdeal.S100000x64 .f32 :=
  Cert.Net.layer1 (X m c main_arg0) (srcOf m c) (dstOf m c) (X m c main_arg3) (X m c main_arg4) (X m c main_arg5)
def h2 : FVec Ideal Cert.ReferenceIdeal.S100000x64 .f32 :=
  Cert.Net.layerR (h1 m c) (srcOf m c) (dstOf m c) (X m c main_arg6) (X m c main_arg7) (X m c main_arg8)
def h3 : FVec Ideal Cert.ReferenceIdeal.S100000x64 .f32 :=
  Cert.Net.layerR (h2 m c) (srcOf m c) (dstOf m c) (X m c main_arg9) (X m c main_arg10) (X m c main_arg11)
def h4 : FVec Ideal Cert.ReferenceIdeal.S100000x64 .f32 :=
  Cert.Net.layerL (h3 m c) (srcOf m c) (dstOf m c) (X m c main_arg12) (X m c main_arg13) (X m c main_arg14)

/-! ### Before the first region: the edge endpoints, the first neighbour sums, the first bias row -/

theorem W1_v1 : W1 (F := Ideal) m ρ c (Proc.devRef .tc main_v1) = srcOf m c := host0_v1 (W0 m ρ c)
theorem W1_v3 : W1 (F := Ideal) m ρ c (Proc.devRef .tc main_v3) = dstOf m c := host0_v3 (W0 m ρ c)
theorem W1_v13 : W1 (F := Ideal) m ρ c (Proc.devRef .tc main_v13) = Cert.Net.agg8 (X m c main_arg0) (srcOf m c) (dstOf m c) :=
  host0_v13 (W0 m ρ c)
theorem W1_v14 : W1 (F := Ideal) m ρ c (Proc.devRef .tc main_v14) = Cert.Net.row64 (X m c main_arg4) := host0_v14 (W0 m ρ c)

/-! ### The first layer -/

theorem W2_v15 : W2 (F := Ideal) m ρ c (Proc.devRef .tc main_v15) = h1 m c := by
  refine ((W2_arr m ρ c 5).trans (Cert.KernelIdeal.Region0.arr (V1 m ρ) c)).trans ?_
  show Cert.GraphConv.mixRelu (A := 100000) (K := 8) (C := 64) (W1 m ρ c (Proc.devRef .tc main_v13))
    (W1 m ρ c (Proc.devRef .tc main_arg0)) (W1 m ρ c (Proc.devRef .tc main_arg3)) (W1 m ρ c (Proc.devRef .tc main_v14))
    (W1 m ρ c (Proc.devRef .tc main_arg5)) = _
  rw [W1_v13 m ρ c, W1_v14 m ρ c, launched1 m ρ c main_arg0 (by unwritten), launched1 m ρ c main_arg3 (by unwritten),
    launched1 m ρ c main_arg5 (by unwritten)]
  rfl

theorem W2_v1 : W2 (F := Ideal) m ρ c (Proc.devRef .tc main_v1) = srcOf m c :=
  (carried2 m ρ c main_v1 (by decide)).trans (W1_v1 m ρ c)
theorem W2_v3 : W2 (F := Ideal) m ρ c (Proc.devRef .tc main_v3) = dstOf m c :=
  (carried2 m ρ c main_v3 (by decide)).trans (W1_v3 m ρ c)

theorem W3_v25 : W3 (F := Ideal) m ρ c (Proc.devRef .tc main_v25) = Cert.Net.agg64 (h1 m c) (srcOf m c) (dstOf m c) := by
  refine (host1_v25 (W2 m ρ c)).trans ?_
  rw [W2_v15 m ρ c, W2_v1 m ρ c, W2_v3 m ρ c]
theorem W3_v26 : W3 (F := Ideal) m ρ c (Proc.devRef .tc main_v26) = Cert.Net.row64 (X m c main_arg7) := by
  refine (host1_v26 (W2 m ρ c)).trans ?_
  rw [launched2 m ρ c main_arg7 (by unwritten) (by decide)]
theorem W3_v15 : W3 (F := Ideal) m ρ c (Proc.devRef .tc main_v15) = h1 m c :=
  (StableHlo.after_of_forall_not_mem (b := Proc.devRef .tc main_v15) _ _ (by unwritten)).trans (W2_v15 m ρ c)

/-! ### The second layer -/

theorem W4_v27 : W4 (F := Ideal) m ρ c (Proc.devRef .tc main_v27) = h2 m c := by
  refine ((W4_arr m ρ c 5).trans (Cert.KernelIdeal.Region1.arr (V3 m ρ) c)).trans ?_
  show Cert.GraphConv.mixRelu (A := 100000) (K := 64) (C := 64) (W3 m ρ c (Proc.devRef .tc main_v25))
    (W3 m ρ c (Proc.devRef .tc main_v15)) (W3 m ρ c (Proc.devRef .tc main_arg6)) (W3 m ρ c (Proc.devRef .tc main_v26))
    (W3 m ρ c (Proc.devRef .tc main_arg8)) = _
  rw [W3_v25 m ρ c, W3_v15 m ρ c, W3_v26 m ρ c, launched3 m ρ c main_arg6 (by unwritten) (by decide) (by unwritten),
    launched3 m ρ c main_arg8 (by unwritten) (by decide) (by unwritten)]
  rfl

theorem W4_v1 : W4 (F := Ideal) m ρ c (Proc.devRef .tc main_v1) = srcOf m c :=
  (carried4 m ρ c main_v1 (by decide) (by unwritten) (by decide)).trans (W1_v1 m ρ c)
theorem W4_v3 : W4 (F := Ideal) m ρ c (Proc.devRef .tc main_v3) = dstOf m c :=
  (carried4 m ρ c main_v3 (by decide) (by unwritten) (by decide)).trans (W1_v3 m ρ c)

theorem W5_v37 : W5 (F := Ideal) m ρ c (Proc.devRef .tc main_v37) = Cert.Net.agg64 (h2 m c) (srcOf m c) (dstOf m c) := by
  refine (host2_v37 (W4 m ρ c)).trans ?_
  rw [W4_v27 m ρ c, W4_v1 m ρ c, W4_v3 m ρ c]
theorem W5_v38 : W5 (F := Ideal) m ρ c (Proc.devRef .tc main_v38) = Cert.Net.row64 (X m c main_arg10) := by
  refine (host2_v38 (W4 m ρ c)).trans ?_
  rw [launched4 m ρ c main_arg10 (by unwritten) (by decide) (by unwritten) (by decide)]
theorem W5_v27 : W5 (F := Ideal) m ρ c (Proc.devRef .tc main_v27) = h2 m c :=
  (StableHlo.after_of_forall_not_mem (b := Proc.devRef .tc main_v27) _ _ (by unwritten)).trans (W4_v27 m ρ c)

/-! ### The third layer -/

theorem W6_v39 : W6 (F := Ideal) m ρ c (Proc.devRef .tc main_v39) = h3 m c := by
  refine ((W6_arr m ρ c 5).trans (Cert.KernelIdeal.Region2.arr (V5 m ρ) c)).trans ?_
  show Cert.GraphConv.mixRelu (A := 100000) (K := 64) (C := 64) (W5 m ρ c (Proc.devRef .tc main_v37))
    (W5 m ρ c (Proc.devRef .tc main_v27)) (W5 m ρ c (Proc.devRef .tc main_arg9)) (W5 m ρ c (Proc.devRef .tc main_v38))
    (W5 m ρ c (Proc.devRef .tc main_arg11)) = _
  rw [W5_v37 m ρ c, W5_v27 m ρ c, W5_v38 m ρ c,
    launched5 m ρ c main_arg9 (by unwritten) (by decide) (by unwritten) (by decide) (by unwritten),
    launched5 m ρ c main_arg11 (by unwritten) (by decide) (by unwritten) (by decide) (by unwritten)]
  rfl

theorem W6_v1 : W6 (F := Ideal) m ρ c (Proc.devRef .tc main_v1) = srcOf m c :=
  (carried6 m ρ c main_v1 (by decide) (by unwritten) (by decide) (by unwritten) (by decide)).trans (W1_v1 m ρ c)
theorem W6_v3 : W6 (F := Ideal) m ρ c (Proc.devRef .tc main_v3) = dstOf m c :=
  (carried6 m ρ c main_v3 (by decide) (by unwritten) (by decide) (by unwritten) (by decide)).trans (W1_v3 m ρ c)

theorem W7_v49 : W7 (F := Ideal) m ρ c (Proc.devRef .tc main_v49) = Cert.Net.agg64 (h3 m c) (srcOf m c) (dstOf m c) := by
  refine (host3_v49 (W6 m ρ c)).trans ?_
  rw [W6_v39 m ρ c, W6_v1 m ρ c, W6_v3 m ρ c]
theorem W7_v50 : W7 (F := Ideal) m ρ c (Proc.devRef .tc main_v50) = Cert.Net.row64 (X m c main_arg13) := by
  refine (host3_v50 (W6 m ρ c)).trans ?_
  rw [launched6 m ρ c main_arg13 (by unwritten) (by decide) (by unwritten) (by decide) (by unwritten) (by decide)]
theorem W7_v39 : W7 (F := Ideal) m ρ c (Proc.devRef .tc main_v39) = h3 m c :=
  (StableHlo.after_of_forall_not_mem (b := Proc.devRef .tc main_v39) _ _ (by unwritten)).trans (W6_v39 m ρ c)

/-! ### The fourth layer, without the rectifier -/

theorem W8_v51 : W8 (F := Ideal) m ρ c (Proc.devRef .tc main_v51) = h4 m c := by
  refine ((W8_arr m ρ c 5).trans (Cert.KernelIdeal.Region3.arr (V7 m ρ) c)).trans ?_
  show Cert.GraphConv.mix (A := 100000) (K := 64) (C := 64) (W7 m ρ c (Proc.devRef .tc main_v49))
    (W7 m ρ c (Proc.devRef .tc main_v39)) (W7 m ρ c (Proc.devRef .tc main_arg12)) (W7 m ρ c (Proc.devRef .tc main_v50))
    (W7 m ρ c (Proc.devRef .tc main_arg14)) = _
  rw [W7_v49 m ρ c, W7_v39 m ρ c, W7_v50 m ρ c,
    launched7 m ρ c main_arg12 (by unwritten) (by decide) (by unwritten) (by decide) (by unwritten) (by decide) (by unwritten),
    launched7 m ρ c main_arg14 (by unwritten) (by decide) (by unwritten) (by decide) (by unwritten) (by decide) (by unwritten)]
  rfl

/-! ### The graph means and the head -/

theorem W9_v63 : W9 (F := Ideal) m ρ c (Proc.devRef .tc main_v63) = Cert.Net.pool (h4 m c) (X m c main_arg2) := by
  refine (host4_v63 (W8 m ρ c)).trans ?_
  rw [W8_v51 m ρ c, launched8 m ρ c main_arg2 (by unwritten) (by decide) (by unwritten) (by decide) (by unwritten) (by decide)
    (by unwritten) (by decide)]
theorem W9_v64 : W9 (F := Ideal) m ρ c (Proc.devRef .tc main_v64) = Cert.Net.row2 (X m c main_arg16) := by
  refine (host4_v64 (W8 m ρ c)).trans ?_
  rw [launched8 m ρ c main_arg16 (by unwritten) (by decide) (by unwritten) (by decide) (by unwritten) (by decide)
    (by unwritten) (by decide)]

end Run

/-- The result buffer at the last boundary is the network of the launch contents of the arguments. -/
theorem result (c : Dev nD) :
    W10 (F := Ideal) m ρ c (Proc.devRef .tc main_v65) = out m c := by
  refine ((W10_arr m ρ c 3).trans (Cert.KernelIdeal.Region4.arr (V9 m ρ) c)).trans ?_
  show Cert.Gcn.affine (A := 512) (K := 64) (C := 2) (W9 m ρ c (Proc.devRef .tc main_v63))
    (W9 m ρ c (Proc.devRef .tc main_arg15)) (W9 m ρ c (Proc.devRef .tc main_v64)) = _
  rw [W9_v63 m ρ c, W9_v64 m ρ c,
    launched9 m ρ c main_arg15 (by unwritten) (by decide) (by unwritten) (by decide) (by unwritten) (by decide) (by unwritten)
      (by decide) (by unwritten)]
  unfold out Cert.Net.net Cert.Net.head h4 h3 h2 h1 srcOf dstOf
  rfl

/-- The run of the kernel program with its result read: the network of the arguments, the arguments as launched. -/
theorem run : θ_run defs (onTc (τ := τ) (main (F := Ideal))) ⟨m, fun _ => 0, ρ⟩ (fun r => ∀ c : Dev nD,
      r.2.mem ((c.tc : Thread nD τ).loc main_v65) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result m ρ c), (h c).2⟩)
    (Cert.KernelIdeal.Named.run_named (F := Ideal) m ρ)

end Cert.KernelIdeal.NetValue

end
-- ==== Proof.RefValue.lean ====
/-
  The reference program's result as the network function of the argument arrays: its stages, one host
  operation each, are grouped into the layers.

  Each group of stages is one step of the network: the endpoints of the edges (two rows of the edge list), the
  neighbour sums (index wrap, gather, scatter-add into zeros), the dense mix (two products, the bias row spread
  over the rows, two sums, and for the rectified layers the maximum against a spread zero), the graph means, and
  the linear head. Each group is shown equal to its step as a function of the stage before it, whatever that stage is.
-/
import proofs.«110120_j60421599920514_1_alg».proof.Proof.Gen.ReferenceIdeal.Run
import proofs.«110120_j60421599920514_1_alg».proof.Proof.Gen.ReferenceIdeal.Read
import proofs.«110120_j60421599920514_1_alg».proof.Proof.Shared

set_option maxRecDepth 16384

noncomputable section

namespace Cert.ReferenceIdeal.RefValue

open Idealize.ShloMosaic Cert.ReferenceIdeal Cert.ReferenceIdeal.Gen Cert.ReferenceIdeal.Read

/-- Float arrays of the reference's argument and stage types. -/
abbrev FArr (s : Shape) : Type := (⟨s, .f32⟩ : BufTy).Contents (Elt Ideal)

/-- Integer arrays of the reference's argument and stage types. -/
abbrev IArr (s : Shape) : Type := (⟨s, .i32⟩ : BufTy).Contents (Elt Ideal)

/-! ## The contraction records are the plain matrix product's -/

theorem dot8_eq : dot_S100000x8_S8x64_S100000x64_1_0_0_1_n_n = DotDims.plain 100000 8 64 := rfl
theorem dot64_eq : dot_S100000x64_S64x64_S100000x64_1_0_0_1_n_n = DotDims.plain 100000 64 64 := rfl
theorem dot2_eq : dot_S512x64_S64x2_S512x2_1_0_0_1_n_n = DotDims.plain 512 64 2 := rfl

/-! ## The edges' endpoints -/

/-- Row 0 of the edge list, recast to a vector: the sources. -/
theorem stage_v1 (x1 : IArr S2x1000000) : val_main_v1 (F := Ideal) x1 = Cert.Net.src x1 := by
  unfold val_main_v1 val_main_v0 Cert.Net.src
  rfl

/-- Row 1 of the edge list, recast to a vector: the destinations. -/
theorem stage_v3 (x1 : IArr S2x1000000) : val_main_v3 (F := Ideal) x1 = Cert.Net.dst x1 := by
  unfold val_main_v3 val_main_v2 Cert.Net.dst
  rfl

/-! ## Layer 1 -/

/-- The neighbour sums of the node features: the sources' rows (a negative source moved up by the number of nodes)
    gathered and scatter-added at the destinations into zeros. -/
theorem stage_v13 (x0 : FArr S100000x8) (x1 : IArr S2x1000000) :
    val_main_v13 (F := Ideal) x0 x1 = Cert.Net.agg8 x0 (Cert.Net.src x1) (Cert.Net.dst x1) := by
  unfold val_main_v13 val_main_v12 val_main_v11 val_main_v10 val_main_v9 val_main_v8 val_main_v7 val_main_v6 val_main_v5
    val_main_v4 val_main_c val_main_c_0 val_main_cst
  rw [stage_v1, stage_v3]
  unfold Cert.Net.agg8 Cert.Net.wrap
  rfl

/-- The first layer: relu ((a·w3 + b4) + x·w5), a the neighbour sums of x. -/
theorem stage_v20 (x0 : FArr S100000x8) (x1 : IArr S2x1000000) (x3 : FArr S8x64) (x4 : FArr S64) (x5 : FArr S8x64) :
    val_main_v20 (F := Ideal) x0 x1 x3 x4 x5 = Cert.Net.layer1 x0 (Cert.Net.src x1) (Cert.Net.dst x1) x3 x4 x5 := by
  unfold val_main_v20 val_main_v19 val_main_v17 val_main_v18 val_main_v14 val_main_v16 val_main_v15 val_main_call0_v0
    val_main_call0_cst
  rw [stage_v13]
  unfold Cert.Net.layer1 Cert.Net.row64
  generalize Cert.Net.agg8 x0 (Cert.Net.src x1) (Cert.Net.dst x1) = a
  rw [dot8_eq]
  exact Cert.GraphConv.host_mixRelu _ a x0 x3 x5 _ _ _

/-! ## Layer 2 -/

/-- The neighbour sums of the previous layer's rows, that layer held as it stands. -/
theorem stage_v30 (x0 : FArr S100000x8) (x1 : IArr S2x1000000) (x3 : FArr S8x64) (x4 : FArr S64) (x5 : FArr S8x64) :
    val_main_v30 (F := Ideal) x0 x1 x3 x4 x5
      = Cert.Net.agg64 (val_main_v20 (F := Ideal) x0 x1 x3 x4 x5) (Cert.Net.src x1) (Cert.Net.dst x1) := by
  unfold val_main_v30 val_main_v27
  generalize val_main_v20 (F := Ideal) x0 x1 x3 x4 x5 = h
  unfold val_main_v29 val_main_v28 val_main_v26 val_main_v25 val_main_v24 val_main_v23 val_main_v22 val_main_v21
    val_main_c_1 val_main_c_2 val_main_cst_3
  rw [stage_v1, stage_v3]
  unfold Cert.Net.agg64 Cert.Net.wrap
  rfl

/-- The second layer: relu ((a·w6 + b7) + h·w8), h the first layer and a its neighbour sums. -/
theorem stage_v37 (x0 : FArr S100000x8) (x1 : IArr S2x1000000) (x3 : FArr S8x64) (x4 : FArr S64) (x5 : FArr S8x64) (x6 : FArr S64x64) (x7 : FArr S64) (x8 : FArr S64x64) :
    val_main_v37 (F := Ideal) x0 x1 x3 x4 x5 x6 x7 x8
      = Cert.Net.layerR (val_main_v20 (F := Ideal) x0 x1 x3 x4 x5) (Cert.Net.src x1) (Cert.Net.dst x1) x6 x7 x8 := by
  unfold val_main_v37 val_main_v36 val_main_v34 val_main_v35 val_main_v31 val_main_v33 val_main_v32 val_main_call1_v0
    val_main_call1_cst
  rw [stage_v30]
  generalize val_main_v20 (F := Ideal) x0 x1 x3 x4 x5 = h
  unfold Cert.Net.layerR Cert.Net.row64
  generalize Cert.Net.agg64 h (Cert.Net.src x1) (Cert.Net.dst x1) = a
  rw [dot64_eq]
  exact Cert.GraphConv.host_mixRelu _ a h x6 x8 _ _ _

/-! ## Layer 3 -/

/-- The neighbour sums of the previous layer's rows, that layer held as it stands. -/
theorem stage_v47 (x0 : FArr S100000x8) (x1 : IArr S2x1000000) (x3 : FArr S8x64) (x4 : FArr S64) (x5 : FArr S8x64) (x6 : FArr S64x64) (x7 : FArr S64) (x8 : FArr S64x64) :
    val_main_v47 (F := Ideal) x0 x1 x3 x4 x5 x6 x7 x8
      = Cert.Net.agg64 (val_main_v37 (F := Ideal) x0 x1 x3 x4 x5 x6 x7 x8) (Cert.Net.src x1) (Cert.Net.dst x1) := by
  unfold val_main_v47 val_main_v44
  generalize val_main_v37 (F := Ideal) x0 x1 x3 x4 x5 x6 x7 x8 = h
  unfold val_main_v46 val_main_v45 val_main_v43 val_main_v42 val_main_v41 val_main_v40 val_main_v39 val_main_v38
    val_main_c_4 val_main_c_5 val_main_cst_6
  rw [stage_v1, stage_v3]
  unfold Cert.Net.agg64 Cert.Net.wrap
  rfl

/-- The third layer: relu ((a·w9 + b10) + h·w11), h the second layer and a its neighbour sums. -/
theorem stage_v54 (x0 : FArr S100000x8) (x1 : IArr S2x1000000) (x3 : FArr S8x64) (x4 : FArr S64) (x5 : FArr S8x64) (x6 : FArr S64x64) (x7 : FArr S64) (x8 : FArr S64x64) (x9 : FArr S64x64) (x10 : FArr S64) (x11 : FArr S64x64) :
    val_main_v54 (F := Ideal) x0 x1 x3 x4 x5 x6 x7 x8 x9 x10 x11
      = Cert.Net.layerR (val_main_v37 (F := Ideal) x0 x1 x3 x4 x5 x6 x7 x8) (Cert.Net.src x1) (Cert.Net.dst x1) x9 x10 x11 := by
  unfold val_main_v54 val_main_v53 val_main_v51 val_main_v52 val_main_v48 val_main_v50 val_main_v49 val_main_call2_v0
    val_main_call2_cst
  rw [stage_v47]
  generalize val_main_v37 (F := Ideal) x0 x1 x3 x4 x5 x6 x7 x8 = h
  unfold Cert.Net.layerR Cert.Net.row64
  generalize Cert.Net.agg64 h (Cert.Net.src x1) (Cert.Net.dst x1) = a
  rw [dot64_eq]
  exact Cert.GraphConv.host_mixRelu _ a h x9 x11 _ _ _

/-! ## Layer 4 -/

/-- The neighbour sums of the previous layer's rows, that layer held as it stands. -/
theorem stage_v64 (x0 : FArr S100000x8) (x1 : IArr S2x1000000) (x3 : FArr S8x64) (x4 : FArr S64) (x5 : FArr S8x64) (x6 : FArr S64x64) (x7 : FArr S64) (x8 : FArr S64x64) (x9 : FArr S64x64) (x10 : FArr S64) (x11 : FArr S64x64) :
    val_main_v64 (F := Ideal) x0 x1 x3 x4 x5 x6 x7 x8 x9 x10 x11
      = Cert.Net.agg64 (val_main_v54 (F := Ideal) x0 x1 x3 x4 x5 x6 x7 x8 x9 x10 x11) (Cert.Net.src x1) (Cert.Net.dst x1) := by
  unfold val_main_v64 val_main_v61
  generalize val_main_v54 (F := Ideal) x0 x1 x3 x4 x5 x6 x7 x8 x9 x10 x11 = h
  unfold val_main_v63 val_main_v62 val_main_v60 val_main_v59 val_main_v58 val_main_v57 val_main_v56 val_main_v55
    val_main_c_7 val_main_c_8 val_main_cst_9
  rw [stage_v1, stage_v3]
  unfold Cert.Net.agg64 Cert.Net.wrap
  rfl

/-- The fourth layer, not rectified: (a·w12 + b13) + h·w14, h the third layer and a its neighbour sums. -/
theorem stage_v70 (x0 : FArr S100000x8) (x1 : IArr S2x1000000) (x3 : FArr S8x64) (x4 : FArr S64) (x5 : FArr S8x64) (x6 : FArr S64x64) (x7 : FArr S64) (x8 : FArr S64x64) (x9 : FArr S64x64) (x10 : FArr S64) (x11 : FArr S64x64) (x12 : FArr S64x64) (x13 : FArr S64) (x14 : FArr S64x64) :
    val_main_v70 (F := Ideal) x0 x1 x3 x4 x5 x6 x7 x8 x9 x10 x11 x12 x13 x14
      = Cert.Net.layerL (val_main_v54 (F := Ideal) x0 x1 x3 x4 x5 x6 x7 x8 x9 x10 x11) (Cert.Net.src x1) (Cert.Net.dst x1) x12 x13 x14 := by
  unfold val_main_v70 val_main_v68 val_main_v69 val_main_v65 val_main_v67 val_main_v66
  rw [stage_v64]
  generalize val_main_v54 (F := Ideal) x0 x1 x3 x4 x5 x6 x7 x8 x9 x10 x11 = h
  unfold Cert.Net.layerL Cert.Net.row64
  generalize Cert.Net.agg64 h (Cert.Net.src x1) (Cert.Net.dst x1) = a
  rw [dot64_eq]
  exact Cert.GraphConv.host_mix _ a h x12 x14 _ _

/-! ## The graph means and the head -/

/-- The mean over each graph's nodes: the sums of the fourth layer's rows by graph id over the node counts (a count
    below one read as one), the fourth layer held as it stands. -/
theorem stage_v82 (x0 : FArr S100000x8) (x1 : IArr S2x1000000) (x2 : IArr S100000) (x3 : FArr S8x64) (x4 : FArr S64) (x5 : FArr S8x64) (x6 : FArr S64x64) (x7 : FArr S64) (x8 : FArr S64x64) (x9 : FArr S64x64) (x10 : FArr S64) (x11 : FArr S64x64) (x12 : FArr S64x64) (x13 : FArr S64) (x14 : FArr S64x64) :
    val_main_v82 (F := Ideal) x0 x1 x2 x3 x4 x5 x6 x7 x8 x9 x10 x11 x12 x13 x14
      = Cert.Net.pool (val_main_v70 (F := Ideal) x0 x1 x3 x4 x5 x6 x7 x8 x9 x10 x11 x12 x13 x14) x2 := by
  unfold val_main_v82 val_main_v73
  generalize val_main_v70 (F := Ideal) x0 x1 x3 x4 x5 x6 x7 x8 x9 x10 x11 x12 x13 x14 = h
  unfold val_main_v81 val_main_v80 val_main_v79 val_main_v78 val_main_v77 val_main_v76 val_main_v75 val_main_v74 val_main_v72
    val_main_v71 val_main_cst_10 val_main_cst_11 val_main_cst_12 val_main_cst_13 Cert.Net.pool
  rfl

/-- The head: the graph means times w15 plus the bias row b16. -/
theorem stage_v86 (x0 : FArr S100000x8) (x1 : IArr S2x1000000) (x2 : IArr S100000) (x3 : FArr S8x64) (x4 : FArr S64) (x5 : FArr S8x64) (x6 : FArr S64x64) (x7 : FArr S64) (x8 : FArr S64x64) (x9 : FArr S64x64) (x10 : FArr S64) (x11 : FArr S64x64) (x12 : FArr S64x64) (x13 : FArr S64) (x14 : FArr S64x64) (x15 : FArr S64x2) (x16 : FArr S2) :
    val_main_v86 (F := Ideal) x0 x1 x2 x3 x4 x5 x6 x7 x8 x9 x10 x11 x12 x13 x14 x15 x16
      = Cert.Net.head (val_main_v70 (F := Ideal) x0 x1 x3 x4 x5 x6 x7 x8 x9 x10 x11 x12 x13 x14) x2 x15 x16 := by
  unfold val_main_v86 val_main_v85 val_main_v84 val_main_v83
  rw [stage_v82]
  generalize val_main_v70 (F := Ideal) x0 x1 x3 x4 x5 x6 x7 x8 x9 x10 x11 x12 x13 x14 = h
  unfold Cert.Net.head Cert.Net.row2
  generalize Cert.Net.pool h x2 = p
  rw [dot2_eq]
  exact Cert.Gcn.host_affine _ p x15 _ _

/-! ## The whole program -/

/-- The last stage of the reference is the network of the arguments. -/
theorem result (x0 : (⟨S100000x8, .f32⟩ : BufTy).Contents (Elt Ideal)) (x1 : (⟨S2x1000000, .i32⟩ : BufTy).Contents (Elt Ideal)) (x2 : (⟨S100000, .i32⟩ : BufTy).Contents (Elt Ideal)) (x3 : (⟨S8x64, .f32⟩ : BufTy).Contents (Elt Ideal)) (x4 : (⟨S64, .f32⟩ : BufTy).Contents (Elt Ideal)) (x5 : (⟨S8x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S64x2, .f32⟩ : BufTy).Contents (Elt Ideal)) (x16 : (⟨S2, .f32⟩ : BufTy).Contents (Elt Ideal)) :
    val_main_v86 (F := Ideal) x0 x1 x2 x3 x4 x5 x6 x7 x8 x9 x10 x11 x12 x13 x14 x15 x16 = Cert.Net.net x0 x1 x2 x3 x4 x5 x6 x7 x8 x9 x10 x11 x12 x13 x14 x15 x16 := by
  rw [stage_v86, stage_v70, stage_v54, stage_v37, stage_v20]
  rfl

end Cert.ReferenceIdeal.RefValue

end
-- ==== Proof.lean ====
/-
  A four-layer graph convolution network with a mean pool and a linear head: the kernel program against its reference,
  over the extended reals.

  Both programs gather the source rows of every edge and scatter-add them at the destinations on the host, with the same
  host operations; the kernel program then runs each layer's dense part relu ((a·wr + b) + h·wo) as a region over blocks of
  5000 node rows (the last layer without the rectifier, the head as one block), where the reference applies dot_general,
  a broadcast bias and a maximum to the whole arrays. Both are the same function `Cert.Net.net` of the argument arrays:
  narrowing to bf16 is the identity on the extended reals, a matrix-unit product into a zero accumulator and a dot_general
  are the same finite sum, and a block of rows of a layer depends on the same rows of its operands only. No law of
  arithmetic beyond that is used, so the finiteness of the inputs is never opened.
-/
import proofs.«110120_j60421599920514_1_alg».proof.Defs
import proofs.«110120_j60421599920514_1_alg».proof.Proof.Gen.Kernel
import proofs.«110120_j60421599920514_1_alg».proof.Proof.Gen.Kernel.Skeleton
import proofs.«110120_j60421599920514_1_alg».proof.Proof.Gen.Kernel.Launch
import proofs.«110120_j60421599920514_1_alg».proof.Proof.Gen.Kernel.Points
import proofs.«110120_j60421599920514_1_alg».proof.Proof.Gen.Kernel.Frame
import proofs.«110120_j60421599920514_1_alg».proof.Proof.Gen.KernelIdeal
import proofs.«110120_j60421599920514_1_alg».proof.Proof.Gen.KernelIdeal.Skeleton
import proofs.«110120_j60421599920514_1_alg».proof.Proof.Gen.KernelIdeal.Launch
import proofs.«110120_j60421599920514_1_alg».proof.Proof.Gen.KernelIdeal.Points
import proofs.«110120_j60421599920514_1_alg».proof.Proof.Gen.KernelIdeal.Frame
import proofs.«110120_j60421599920514_1_alg».proof.Proof.Gen.ReferenceIdeal
import proofs.«110120_j60421599920514_1_alg».proof.Proof.Gen.ReferenceIdeal.Run
import proofs.«110120_j60421599920514_1_alg».proof.Proof.Gen.ReferenceIdeal.Read
import proofs.«110120_j60421599920514_1_alg».proof.Proof.Gen.Pre_finite_inputs
import proofs.«110120_j60421599920514_1_alg».proof.Proof.KernelValue
import proofs.«110120_j60421599920514_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the network of the arguments; the arguments agree. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v86_eq, Cert.ReferenceIdeal.RefValue.result, h0, h1, h2, h3, h4, h5, h6, h7, h8, h9, h10, h11, h12, h13, h14, h15, h16]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
